-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v56)) (v2 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v56) = v1 c
          ∧ r.2.mem ((c.tc : Thread Cert.KernelIdeal.nD Cert.KernelIdeal.τ).loc Cert.KernelIdeal.main_v50) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v88) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S512x256 : Shape := ⟨2, ![512, 256]⟩
abbrev S512 : Shape := ⟨1, ![512]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512 .f32) (main_v13 : IVec S_ 1) (main_v16 : IVec S512x256 1) : IVec S_ 1 :=
  let main_c_5 : IVec S_ 1 := constantI S_ 1 1#1
  let main_v17 : IVec S_ 1 := (fun x v => Host.reduce IntOp.andi x v reducesTo_S512x256_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  main_v23

def fn {F : FTy → Type} [FloatOps F] (main_arg0 : FVec F S65536x256 .f32) (main_arg1 : FVec F S512x256 .f32) (main_arg2 : FVec F S512 .f32) (main_arg3 : FVec F S512x256 .f32) (main_arg4 : FVec F S512 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S512 .f32 := Host.absf main_arg2
  let main_cst_2 : FVec F S_ .f32 := constant S_ .f32 0x7F800000#32
  let main_v10 : FVec F S512 .f32 := broadcastInDim S512 ![] bcast_S_S512 main_cst_2
  let main_v11 : IVec S512 1 := cmpf .olt main_v9 main_v10
  let main_c_3 : IVec S_ 1 := constantI S_ 1 1#1
  let main_v12 : IVec S_ 1 := (fun x v => Host.reduce IntOp.andi x v reducesTo_S512_S_d0 h_S_) main_v11 main_c_3
  let main_v13 : IVec S_ 1 := andi main_v8 main_v12
  let main_v14 : FVec F S512x256 .f32 := Host.absf main_arg3
  let main_cst_4 : FVec F S_ .f32 := constant S_ .f32 0x7F800000#32
  let main_v15 : FVec F S512x256 .f32 := broadcastInDim S512x256 ![] bcast_S_S512x256 main_cst_4
  let main_v16 : IVec S512x256 1 := cmpf .olt main_v14 main_v15
  fn_part1 (F := F) main_arg4 main_v13 main_v16
-- ==== Kernel.lean ====
abbrev S65536x256 : Shape := ⟨2, ![65536, 256]⟩
abbrev S512x256 : Shape := ⟨2, ![512, 256]⟩
abbrev S512 : Shape := ⟨1, ![512]⟩
abbrev S1x512 : Shape := ⟨2, ![1, 512]⟩
abbrev S1x1 : Shape := ⟨2, ![1, 1]⟩
abbrev S1024x256 : Shape := ⟨2, ![1024, 256]⟩
abbrev S1024 : Shape := ⟨1, ![1024]⟩
abbrev S1024x1 : Shape := ⟨2, ![1024, 1]⟩
abbrev S512x1 : Shape := ⟨2, ![512, 1]⟩
abbrev S256x512 : Shape := ⟨2, ![256, 512]⟩
abbrev S1024x512 : Shape := ⟨2, ![1024, 512]⟩
abbrev S1x1024x256 : Shape := ⟨3, ![1, 1024, 256]⟩
abbrev S1 : Shape := ⟨1, ![1]⟩
abbrev S1x1x1 : Shape := ⟨3, ![1, 1, 1]⟩
abbrev S512x1024 : Shape := ⟨2, ![512, 1024]⟩
abbrev S_ : Shape := ⟨0, ![]⟩

abbrev nBuf : Space → Nat
  | .hbm => 85
  | .vmem => 8
  | .smem => 0
  | _ => 0

abbrev bufTy : (tb : Table) → Fin (tcTables nBuf tb) → BufTy
  | .hbm, ⟨0, _⟩ => ⟨S65536x256, .f32⟩
  | .hbm, ⟨1, _⟩ => ⟨S512x256, .f32⟩
  | .hbm, ⟨2, _⟩ => ⟨S512, .f32⟩
  | .hbm, ⟨3, _⟩ => ⟨S512x256, .f32⟩
  | .hbm, ⟨4, _⟩ => ⟨S512, .f32⟩
  | .hbm, ⟨5, _⟩ => ⟨S65536x256, .f32⟩
  | .hbm, ⟨6, _⟩ => ⟨S1x512, .f32⟩
  | .hbm, ⟨7, _⟩ => ⟨S512x256, .f32⟩
  | .hbm, ⟨8, _⟩ => ⟨S1x1, .f32⟩
  | .hbm, ⟨9, _⟩ => ⟨S512, .f32⟩
  | .hbm, ⟨10, _⟩ => ⟨S_, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S_, .f32⟩
  | .hbm, ⟨15, _⟩ => ⟨S512, .f32⟩
  | .hbm, ⟨16, _⟩ => ⟨S512, .f32⟩
  | .hbm, ⟨17, _⟩ => ⟨S512, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S512, .f32⟩
  | .hbm, ⟨22, _⟩ => ⟨S512, .f32⟩
  | .hbm, ⟨23, _⟩ => ⟨S_, .f32⟩
  | .hbm, ⟨24, _⟩ => ⟨S_, .f32⟩
  | .hbm, ⟨25, _⟩ => ⟨S512, .f32⟩
  | .hbm, ⟨26, _⟩ => ⟨S512, .f32⟩
  | .hbm, ⟨27, _⟩ => ⟨S512, .f32⟩
  | .hbm, ⟨28, _⟩ => ⟨S512, .f32⟩
  | .hbm, ⟨29, _⟩ => ⟨S_, .f32⟩
  | .hbm, ⟨30, _⟩ => ⟨S512x256, .f32⟩
  | .hbm, ⟨31, _⟩ => ⟨S512x256, .f32⟩
  | .hbm, ⟨32, _⟩ => ⟨S_, .f32⟩
  | .hbm, ⟨33, _⟩ => ⟨S512x256, .f32⟩
  | .hbm, ⟨34, _⟩ => ⟨S512x256, .f32⟩
  | .hbm, ⟨35, _⟩ => ⟨S512x256, .f32⟩
  | .hbm, ⟨36, _⟩ => ⟨S512x1, .f32⟩
  | .hbm, ⟨37, _⟩ => ⟨S512x256, .f32⟩
  | .hbm, ⟨38, _⟩ => ⟨S512x256, .f32⟩
  | .hbm, ⟨39, _⟩ => ⟨S_, .f32⟩
  | .hbm, ⟨40, _⟩ => ⟨S512, .f32⟩
  | .hbm, ⟨41, _⟩ => ⟨S512, .f32⟩
  | .hbm, ⟨42, _⟩ => ⟨S_, .f32⟩
  | .hbm, ⟨43, _⟩ => ⟨S512, .f32⟩
  | .hbm, ⟨44, _⟩ => ⟨S512, .f32⟩
  | .hbm, ⟨45, _⟩ => ⟨S512, .f32⟩
  | .hbm, ⟨46, _⟩ => ⟨S_, .f32⟩
  | .hbm, ⟨47, _⟩ => ⟨S_, .f32⟩
  | .hbm, ⟨48, _⟩ => ⟨S512x256, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S512, .f32⟩
  | .hbm, ⟨53, _⟩ => ⟨S512, .f32⟩
  | .hbm, ⟨54, _⟩ => ⟨S_, .f32⟩
  | .hbm, ⟨55, _⟩ => ⟨S512, .f32⟩
  | .hbm, ⟨56, _⟩ => ⟨S512, .f32⟩
  | .hbm, ⟨57, _⟩ => ⟨S512, .f32⟩
  | .hbm, ⟨58, _⟩ => ⟨S512, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S512, .f32⟩
  | .hbm, ⟨67, _⟩ => ⟨S512, .f32⟩
  | .hbm, ⟨68, _⟩ => ⟨S_, .f32⟩
  | .hbm, ⟨69, _⟩ => ⟨S512, .f32⟩
  | .hbm, ⟨70, _⟩ => ⟨S512, .f32⟩
  | .hbm, ⟨71, _⟩ => ⟨S512, .f32⟩
  | .hbm, ⟨72, _⟩ => ⟨S512, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S1024x256, .f32⟩
  | .local _ .vmem, ⟨1, _⟩ => ⟨S1024x256, .f32⟩
  | .local _ .vmem, ⟨2, _⟩ => ⟨S512x256, .f32⟩
  | .local _ .vmem, ⟨3, _⟩ => ⟨S1024x256, .f32⟩
  | .local _ .vmem, ⟨4, _⟩ => ⟨S1024x256, .f32⟩
  | .local _ .vmem, ⟨5, _⟩ => ⟨S1x512, .f32⟩
  | .local _ .vmem, ⟨6, _⟩ => ⟨S512x256, .f32⟩
  | .local _ .vmem, ⟨7, _⟩ => ⟨S1x1, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_cst_0 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst_1 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_cst_3 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_cst_9 : Ref sig .tc := ⟨.hbm, 49, rfl⟩
abbrev main_v31 : Ref sig .tc := ⟨.hbm, 50, rfl⟩
abbrev main_cst_10 : Ref sig .tc := ⟨.hbm, 51, rfl⟩
abbrev main_v32 : Ref sig .tc := ⟨.hbm, 52, rfl⟩
abbrev main_v33 : Ref sig .tc := ⟨.hbm, 53, rfl⟩
abbrev main_cst_11 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_12 : Ref sig .tc := ⟨.hbm, 59, rfl⟩
abbrev main_v38 : Ref sig .tc := ⟨.hbm, 60, rfl⟩
abbrev main_v39 : Ref sig .tc := ⟨.hbm, 61, rfl⟩
abbrev main_cst_13 : Ref sig .tc := ⟨.hbm, 62, rfl⟩
abbrev main_v40 : Ref sig .tc := ⟨.hbm, 63, rfl⟩
abbrev main_cst_14 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_cst_15 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_16 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_17 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_cst_18 : Ref sig .tc := ⟨.hbm, 82, rfl⟩
abbrev main_v55 : Ref sig .tc := ⟨.hbm, 83, rfl⟩
abbrev main_v56 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

class Facts₀ : Prop where
  inb_S1x512_S1x512_0_0 : ∀ a, (![0, 0] : Fin 2 → Nat) a + S1x512.size a ≤ S1x512.size a
  h_S1x512 : 0 < S1x512.numel
  inb_S512x256_S512x256_0_0 : ∀ a, (![0, 0] : Fin 2 → Nat) a + S512x256.size a ≤ S512x256.size a
  h_S512x256 : 0 < S512x256.numel
  inb_S1x1_S1x1_0_0 : ∀ a, (![0, 0] : Fin 2 → Nat) a + S1x1.size a ≤ S1x1.size a
  h_S1x1 : 0 < S1x1.numel
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  reduces_S1024x256_S1024 : S1024x256.Reduces [1] S1024
  shapeCasts_S1024_S1024x1 : S1024.ShapeCasts S1024x1
  reduces_S512x256_S512 : S512x256.Reduces [1] S512
  shapeCasts_S512_S512x1 : S512.ShapeCasts S512x1
  transposes_S512x1_p1_0_S1x512 : S512x1.Transposes [1, 0] S1x512
  transposes_S512x256_p1_0_S256x512 : S512x256.Transposes [1, 0] S256x512
  broadcasts_S1024x1_S1024x512 : S1024x1.Broadcasts S1024x512
  broadcasts_S1x512_S1024x512 : S1x512.Broadcasts S1024x512
  reduces_S1024x512_S1024 : S1024x512.Reduces [1] S1024
  shapeCasts_S1024x256_S1x1024x256 : S1024x256.ShapeCasts S1x1024x256
  reduces_S1x1024x256_S1 : S1x1024x256.Reduces [1, 2] S1
  shapeCasts_S1_S1x1x1 : S1.ShapeCasts S1x1x1
  inpos_S1x1x1_p0_0_0 : ∀ a, (![0, 0, 0] : Fin 3 → Nat) a < S1x1x1.size a
  reduces_S1024x512_S512 : S1024x512.Reduces [0] S512
  shapeCasts_S512_S1x512 : S512.ShapeCasts S1x512
  transposes_S1024x512_p1_0_S512x1024 : S1024x512.Transposes [1, 0] S512x1024
  shapeCasts_S1x512_S1x512 : S1x512.ShapeCasts S1x512
  shapeCasts_S512x256_S512x256 : S512x256.ShapeCasts S512x256
  shapeCasts_S1x1_S1x1 : S1x1.ShapeCasts S1x1
  shapeCasts_S1x512_S512 : S1x512.ShapeCasts S512
  shapeCasts_S1x1_S_ : S1x1.ShapeCasts S_
  bcast_S_S512 : S_.BroadcastsInDim S512 (![] : Fin 0 → Fin S512.rank)
  reducesTo_S512_S_d0 : S512.ReducesTo [0] S_
  h_S_ : 0 < S_.numel
  bcast_S_S512x256 : S_.BroadcastsInDim S512x256 (![] : Fin 0 → Fin S512x256.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  reducesTo_S512x256_S_d0_1 : S512x256.ReducesTo [0, 1] S_
  dot_S1024x256_S256x512_S1024x512_1_0_0_1_n_n_wf : DotDims.WF S1024x256 S256x512 S1024x512 [1] [0] [0] [1] [] []
  dot_S1024x512_S512x256_S1024x256_1_0_0_1_n_n_wf : DotDims.WF S1024x512 S512x256 S1024x256 [1] [0] [0] [1] [] []
  dot_S512x1024_S1024x256_S512x256_1_0_0_1_n_n_wf : DotDims.WF S512x1024 S1024x256 S512x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S65536x256.size a
  hwx0_2 : ∀ i : grid0.Coords, EltTy.bits .f32 = 32 ∨ (Rect.block (s := S65536x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x512.size a ≤ S1x512.size a
  hwx0_3 : ∀ i : grid0.Coords, EltTy.bits .f32 = 32 ∨ (Rect.block (s := S1x512) S1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S512x256.size a
  hwx0_4 : ∀ i : grid0.Coords, EltTy.bits .f32 = 32 ∨ (Rect.block (s := S512x256) S512x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)

variable [Facts₀]

def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf
def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S1024x256.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x512.size cc0_transform_3 reads0_3 true true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_2) S512x256.size cc0_transform_4 reads0_4 true true 1 stage0_4 sem0_4
    hrank0 hreads0_4 hinb0_4 nbuf0_4 (Memref.isWhole_whole _) hwx0_4 hstage0_4

abbrev win0_5 : Pipeline.Window sig grid0 :=
  Pipeline.Window.ofSpec (Memref.whole main_v0_3) S1x1.size cc0_transform_5 reads0_5 true true 1 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S65536x256 : Shape := ⟨2, ![65536, 256]⟩
abbrev S512x256 : Shape := ⟨2, ![512, 256]⟩
abbrev S512 : Shape := ⟨1, ![512]⟩
abbrev S_ : Shape := ⟨0, ![]⟩
abbrev S65536 : Shape := ⟨1, ![65536]⟩
abbrev S65536x1 : Shape := ⟨2, ![65536, 1]⟩
abbrev S1x512 : Shape := ⟨2, ![1, 512]⟩
abbrev S65536x512 : Shape := ⟨2, ![65536, 512]⟩
abbrev S256x512 : Shape := ⟨2, ![256, 512]⟩
abbrev S512x65536 : Shape := ⟨2, ![512, 65536]⟩
abbrev S512x1 : Shape := ⟨2, ![512, 1]⟩

abbrev nBuf : Space → Nat
  | .hbm => 135
  | .vmem => 0
  | .smem => 0
  | _ => 0

abbrev hbmTy0_0 (i : Nat) : BufTy := match i % 128 with
  | 0 => ⟨S65536x256, .f32⟩
  | 1 => ⟨S512x256, .f32⟩
  | 2 => ⟨S512, .f32⟩
  | 3 => ⟨S512x256, .f32⟩
  | 4 => ⟨S512, .f32⟩
  | 5 => ⟨S65536x256, .f32⟩
  | 6 => ⟨S_, .f32⟩
  | 7 => ⟨S65536, .f32⟩
  | 8 => ⟨S65536x1, .f32⟩
  | 9 => ⟨S512x256, .f32⟩
  | 10 => ⟨S_, .f32⟩
  | 11 => ⟨S512, .f32⟩
  | 12 => ⟨S1x512, .f32⟩
  | 13 => ⟨S65536x512, .f32⟩
  | 14 => ⟨S65536x512, .f32⟩
  | 15 => ⟨S65536x512, .f32⟩
  | 16 => ⟨S_, .f32⟩
  | 17 => ⟨S65536x256, .f32⟩
  | 18 => ⟨S65536x256, .f32⟩
  | 19 => ⟨S256x512, .f32⟩
  | 20 => ⟨S65536x512, .f32⟩
  | 21 => ⟨S65536x512, .f32⟩
  | 22 => ⟨S65536x512, .f32⟩
  | 23 => ⟨S_, .f32⟩
  | 24 => ⟨S65536x512, .f32⟩
  | 25 => ⟨S65536x512, .f32⟩
  | 26 => ⟨S_, .f32⟩
  | 27 => ⟨S65536, .f32⟩
  | 28 => ⟨S_, .f32⟩
  | 29 => ⟨S65536, .f32⟩
  | 30 => ⟨S65536, .f32⟩
  | 31 => ⟨S65536x1, .f32⟩
  | 32 => ⟨S65536x512, .f32⟩
  | 33 => ⟨S65536x512, .f32⟩
  | 34 => ⟨S65536x512, .f32⟩
  | 35 => ⟨S_, .f32⟩
  | 36 => ⟨S65536, .f32⟩
  | 37 => ⟨S65536x1, .f32⟩
  | 38 => ⟨S65536x512, .f32⟩
  | 39 => ⟨S65536x512, .f32⟩
  | 40 => ⟨S65536x256, .f32⟩
  | 41 => ⟨S_, .f32⟩
  | 42 => ⟨S512, .f32⟩
  | 43 => ⟨S512, .f32⟩
  | 44 => ⟨S_, .f32⟩
  | 45 => ⟨S512, .f32⟩
  | 46 => ⟨S_, .f32⟩
  | 47 => ⟨S512, .f32⟩
  | 48 => ⟨S512, .f32⟩
  | 49 => ⟨S512, .f32⟩
  | 50 => ⟨S_, .f32⟩
  | 51 => ⟨S_, .f32⟩
  | 52 => ⟨S_, .f32⟩
  | 53 => ⟨S512, .f32⟩
  | 54 => ⟨S512, .f32⟩
  | 55 => ⟨S_, .f32⟩
  | 56 => ⟨S_, .f32⟩
  | 57 => ⟨S512, .f32⟩
  | 58 => ⟨S512, .f32⟩
  | 59 => ⟨S512, .f32⟩
  | 60 => ⟨S512, .f32⟩
  | 61 => ⟨S512x65536, .f32⟩
  | 62 => ⟨S512x256, .f32⟩
  | 63 => ⟨S_, .f32⟩
  | 64 => ⟨S512x256, .f32⟩
  | 65 => ⟨S512x256, .f32⟩
  | 66 => ⟨S_, .f32⟩
  | 67 => ⟨S512x256, .f32⟩
  | 68 => ⟨S512x256, .f32⟩
  | 69 => ⟨S512x256, .f32⟩
  | 70 => ⟨S512x1, .f32⟩
  | 71 => ⟨S512x256, .f32⟩
  | 72 => ⟨S512x256, .f32⟩
  | 73 => ⟨S_, .f32⟩
  | 74 => ⟨S512, .f32⟩
  | 75 => ⟨S512, .f32⟩
  | 76 => ⟨S_, .f32⟩
  | 77 => ⟨S512, .f32⟩
  | 78 => ⟨S_, .f32⟩
  | 79 => ⟨S512, .f32⟩
  | 80 => ⟨S512, .f32⟩
  | 81 => ⟨S512, .f32⟩
  | 82 => ⟨S65536x256, .f32⟩
  | 83 => ⟨S65536x256, .f32⟩
  | 84 => ⟨S_, .f32⟩
  | 85 => ⟨S_, .f32⟩
  | 86 => ⟨S_, .f32⟩
  | 87 => ⟨S_, .f32⟩
  | 88 => ⟨S65536x256, .f32⟩
  | 89 => ⟨S65536x256, .f32⟩
  | 90 => ⟨S_, .f32⟩
  | 91 => ⟨S_, .f32⟩
  | 92 => ⟨S_, .f32⟩
  | 93 => ⟨S_, .f32⟩
  | 94 => ⟨S512x256, .f32⟩
  | 95 => ⟨S_, .f32⟩
  | 96 => ⟨S_, .f32⟩
  | 97 => ⟨S_, .f32⟩
  | 98 => ⟨S512, .f32⟩
  | 99 => ⟨S_, .f32⟩
  | 100 => ⟨S512, .f32⟩
  | 101 => ⟨S512, .f32⟩
  | 102 => ⟨S_, .f32⟩
  | 103 => ⟨S512, .f32⟩
  | 104 => ⟨S512, .f32⟩
  | 105 => ⟨S512, .f32⟩
  | 106 => ⟨S512, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S512, .f32⟩
  | 115 => ⟨S512, .f32⟩
  | 116 => ⟨S_, .f32⟩
  | 117 => ⟨S512, .f32⟩
  | 118 => ⟨S512, .f32⟩
  | 119 => ⟨S512, .f32⟩
  | 120 => ⟨S512, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S65536x256, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S_, .f32⟩
  | 5 => ⟨S65536x256, .f32⟩
  | 6 => ⟨S65536x256, .f32⟩
  | _ => ⟨S65536x256, .f32⟩

abbrev hbmTy (i : Nat) : BufTy := match i / 128 with
  | 0 => hbmTy0_0 i
  | 1 => hbmTy0_1 i
  | _ => ⟨S65536x256, .f32⟩

abbrev bufTy : (tb : Table) → Fin (tcTables nBuf tb) → BufTy
  | .hbm, ⟨i, _⟩ => hbmTy i
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_6 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_9 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_cst_11 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_cst_12 : Ref sig .tc := ⟨.hbm, 63, rfl⟩
abbrev main_v45 : Ref sig .tc := ⟨.hbm, 64, rfl⟩
abbrev main_v46 : Ref sig .tc := ⟨.hbm, 65, rfl⟩
abbrev main_cst_13 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_14 : Ref sig .tc := ⟨.hbm, 73, rfl⟩
abbrev main_v53 : Ref sig .tc := ⟨.hbm, 74, rfl⟩
abbrev main_v54 : Ref sig .tc := ⟨.hbm, 75, rfl⟩
abbrev main_cst_15 : Ref sig .tc := ⟨.hbm, 76, rfl⟩
abbrev main_v55 : Ref sig .tc := ⟨.hbm, 77, rfl⟩
abbrev main_cst_16 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_cst_17 : Ref sig .tc := ⟨.hbm, 84, rfl⟩
abbrev main_v61 : Ref sig .tc := ⟨.hbm, 85, rfl⟩
abbrev main_cst_18 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_cst_19 : Ref sig .tc := ⟨.hbm, 90, rfl⟩
abbrev main_v65 : Ref sig .tc := ⟨.hbm, 91, rfl⟩
abbrev main_cst_20 : Ref sig .tc := ⟨.hbm, 92, rfl⟩
abbrev main_v66 : Ref sig .tc := ⟨.hbm, 93, rfl⟩
abbrev main_v67 : Ref sig .tc := ⟨.hbm, 94, rfl⟩
abbrev main_cst_21 : Ref sig .tc := ⟨.hbm, 95, rfl⟩
abbrev main_v68 : Ref sig .tc := ⟨.hbm, 96, rfl⟩
abbrev main_cst_22 : Ref sig .tc := ⟨.hbm, 97, rfl⟩
abbrev main_v69 : Ref sig .tc := ⟨.hbm, 98, rfl⟩
abbrev main_cst_23 : Ref sig .tc := ⟨.hbm, 99, rfl⟩
abbrev main_v70 : Ref sig .tc := ⟨.hbm, 100, rfl⟩
abbrev main_v71 : Ref sig .tc := ⟨.hbm, 101, rfl⟩
abbrev main_cst_24 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_cst_25 : Ref sig .tc := ⟨.hbm, 107, rfl⟩
abbrev main_v76 : Ref sig .tc := ⟨.hbm, 108, rfl⟩
abbrev main_v77 : Ref sig .tc := ⟨.hbm, 109, rfl⟩
abbrev main_cst_26 : Ref sig .tc := ⟨.hbm, 110, rfl⟩
abbrev main_v78 : Ref sig .tc := ⟨.hbm, 111, rfl⟩
abbrev main_cst_27 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_cst_28 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_cst_29 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_30 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_v92 : Ref sig .tc := ⟨.hbm, 129, rfl⟩
abbrev main_cst_31 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩

abbrev nD : Nat := 1
abbrev τ : Topo := Topo.v7x

variable {F : FTy → Type} [FloatOps F]

class Facts₀ : Prop where
  reducesTo_S65536x256_S65536_d1 : S65536x256.ReducesTo [1] S65536
  h_S_ : 0 < S_.numel
  bcast_S65536_S65536x1_0 : S65536.BroadcastsInDim S65536x1 (![0] : Fin 1 → Fin S65536x1.rank)
  reducesTo_S512x256_S512_d1 : S512x256.ReducesTo [1] S512
  bcast_S512_S1x512_1 : S512.BroadcastsInDim S1x512 (![1] : Fin 1 → Fin S1x512.rank)
  bcast_S65536x1_S65536x512_0_1 : S65536x1.BroadcastsInDim S65536x512 (![0, 1] : Fin 2 → Fin S65536x512.rank)
  bcast_S1x512_S65536x512_0_1 : S1x512.BroadcastsInDim S65536x512 (![0, 1] : Fin 2 → Fin S65536x512.rank)
  bcast_S_S65536x256 : S_.BroadcastsInDim S65536x256 (![] : Fin 0 → Fin S65536x256.rank)
  transposes_S512x256_S256x512_1_0 : S512x256.Transposes [1, 0] S256x512
  bcast_S_S65536x512 : S_.BroadcastsInDim S65536x512 (![] : Fin 0 → Fin S65536x512.rank)
  reducesTo_S65536x512_S65536_d1 : S65536x512.ReducesTo [1] S65536
  bcast_S_S65536 : S_.BroadcastsInDim S65536 (![] : Fin 0 → Fin S65536.rank)
  bcast_S_S512 : S_.BroadcastsInDim S512 (![] : Fin 0 → Fin S512.rank)
  reducesTo_S65536x512_S512_d0 : S65536x512.ReducesTo [0] S512
  reducesTo_S512_S_d0 : S512.ReducesTo [0] S_
  transposes_S65536x512_S512x65536_1_0 : S65536x512.Transposes [1, 0] S512x65536
  bcast_S_S512x256 : S_.BroadcastsInDim S512x256 (![] : Fin 0 → Fin S512x256.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  reducesTo_S65536x256_S_d0_1 : S65536x256.ReducesTo [0, 1] S_
  reducesTo_S512x256_S_d0_1 : S512x256.ReducesTo [0, 1] S_
  dot_S65536x256_S256x512_S65536x512_1_0_0_1_n_n_wf : DotDims.WF S65536x256 S256x512 S65536x512 [1] [0] [0] [1] [] []
  dot_S65536x512_S512x256_S65536x256_1_0_0_1_n_n_wf : DotDims.WF S65536x512 S512x256 S65536x256 [1] [0] [0] [1] [] []
  dot_S512x65536_S65536x256_S512x256_1_0_0_1_n_n_wf : DotDims.WF S512x65536 S65536x256 S512x256 [1] [0] [0] [1] [] []

variable [Facts₀]

def dot_S65536x256_S256x512_S65536x512_1_0_0_1_n_n : DotDims S65536x256 S256x512 S65536x512 where
  lhsContracting := [1]
  rhsContracting := [0]
  lhsNonContracting := [0]
  rhsNonContracting := [1]
  lhsBatch := []
  rhsBatch := []
  wf := dot_S65536x256_S256x512_S65536x512_1_0_0_1_n_n_wf
def dot_S65536x512_S512x256_S65536x256_1_0_0_1_n_n : DotDims S65536x512 S512x256 S65536x256 where
  lhsContracting := [1]
  rhsContracting := [0]
  lhsNonContracting := [0]
  rhsNonContracting := [1]
  lhsBatch := []
  rhsBatch := []
  wf := dot_S65536x512_S512x256_S65536x256_1_0_0_1_n_n_wf
def dot_S512x65536_S65536x256_S512x256_1_0_0_1_n_n : DotDims S512x65536 S65536x256 S512x256 where
  lhsContracting := [1]
  rhsContracting := [0]
  lhsNonContracting := [0]
  rhsNonContracting := [1]
  lhsBatch := []
  rhsBatch := []
  wf := dot_S512x65536_S65536x256_S512x256_1_0_0_1_n_n_wf

class Facts : Prop extends Facts₀ where

variable [Facts]
-- ==== Proof.RefFrame.lean ====
/-
  The reference is a host program with no kernel launch: its run terminates with every result at the composed
  term of its operations, and the argument arrays are never written. Dropping the results from that run's
  post leaves the frame claim.
-/
import proofs.«178691_j45775761441268_1_alg».proof.Defs
import proofs.«178691_j45775761441268_1_alg».proof.Proof.Gen.ReferenceIdeal
import proofs.«178691_j45775761441268_1_alg».proof.Proof.Gen.Pre_finite_inputs
import proofs.«178691_j45775761441268_1_alg».proof.Proof.Gen.ReferenceIdeal.Run
import proofs.«178691_j45775761441268_1_alg».proof.Proof.Gen.ReferenceIdeal.Read

noncomputable section

namespace Cert.Proof.RefFrame

open Idealize.ShloMosaic Idealize.SL.Sem

attribute [local instance] Cert.ReferenceIdeal.Gen.facts Cert.Pre_finite_inputs.Gen.facts

/-- The reference runs to its end without a fault and leaves its five argument arrays as it found them. -/
theorem frame_ri : Cert.frame_ReferenceIdeal := fun m ρ _ =>
  (θ_run Cert.ReferenceIdeal.defs _ _).mono (fun _ h c => (h c).2.2.2) (Cert.ReferenceIdeal.Value.run (F := Ideal) m ρ)

end Cert.Proof.RefFrame

end
-- ==== Proof.KI.Data.lean ====
/-
  What the kernel's region holds, point by point, named before anything is run.

  The grid has 64 points; point `t` sees rows `1024 t … 1024 t + 1023` of the input and the whole codebook. The body
  writes the quantized rows of the point into the first result's block, and adds the point's contribution to three
  running totals that stay in their staging buffers from one point to the next (each total's block is the whole result,
  written back once, after the last point): the assignment mass per code, the assignment-weighted sum of rows per code,
  and the squared error. At the first point the totals start from zero.
  `accAt n` is the triple of totals after point `n`, by recursion on `n`; `dats` is the pipeline's proof data over
  these contents.
-/
import proofs.«178691_j45775761441268_1_alg».proof.Proof.Gen.KernelIdeal.Launch
import proofs.«178691_j45775761441268_1_alg».proof.Proof.Gen.KernelIdeal.Skeleton
import proofs.«178691_j45775761441268_1_alg».proof.Proof.Gen.KernelIdeal.Points
import Idealize.ShloMosaic.Lib.Pipeline.FrameBody
import Idealize.ShloMosaic.Lib.Pipeline.FrameSuffix

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- Core `c`'s TensorCore buffers when the region is entered, as a valuation: as launched (no host operation comes
    before the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The quantized rows of a block of 1024 rows `x` against the codebook `e`. -/
def qBlk (x : Vec F S1024x256 .f32) (e : Vec F S512x256 .f32) : Vec F S1024x256 .f32 := k0_pay11 x e
/-- The assignment mass per code after a block's contribution is added to `prev`. -/
def esStep (x : Vec F S1024x256 .f32) (e : Vec F S512x256 .f32) (prev : Vec F S1x512 .f32) : Vec F S1x512 .f32 :=
  k0_pay1 (k0_pay9 x e) prev
/-- The assignment-weighted sum of rows per code after a block's contribution is added to `prev`. -/
def dwStep (x : Vec F S1024x256 .f32) (e : Vec F S512x256 .f32) (prev : Vec F S512x256 .f32) : Vec F S512x256 .f32 :=
  k0_pay2 (k0_pay7 x) (k0_pay10 x e) prev
/-- The squared error after a block's contribution is added to `prev`. -/
def sseStep (x : Vec F S1024x256 .f32) (e : Vec F S512x256 .f32) (prev : Vec F S1x1 .f32) : Vec F S1x1 .f32 :=
  k0_pay3 (k0_pay12 x e) prev

/-- The three running totals after point `n`: from zero at the first point, each later point adding its block's
    contribution to what the point before left. -/
def accAt (c : Dev nD) : (n : ℕ) → n < cfg0.N → Vec F S1x512 .f32 × Vec F S512x256 .f32 × Vec F S1x1 .f32
  | 0, hn => (esStep (iblk m c 0 ⟨0, hn⟩) (iblk m c 1 ⟨0, hn⟩) k0_pay4,
              dwStep (iblk m c 0 ⟨0, hn⟩) (iblk m c 1 ⟨0, hn⟩) k0_pay5,
              sseStep (iblk m c 0 ⟨0, hn⟩) (iblk m c 1 ⟨0, hn⟩) k0_pay6)
  | n + 1, hn =>
    (esStep (iblk m c 0 ⟨n + 1, hn⟩) (iblk m c 1 ⟨n + 1, hn⟩) (accAt c n (Nat.lt_of_succ_lt hn)).1,
     dwStep (iblk m c 0 ⟨n + 1, hn⟩) (iblk m c 1 ⟨n + 1, hn⟩) (accAt c n (Nat.lt_of_succ_lt hn)).2.1,
     sseStep (iblk m c 0 ⟨n + 1, hn⟩) (iblk m c 1 ⟨n + 1, hn⟩) (accAt c n (Nat.lt_of_succ_lt hn)).2.2)

/-- The proof data of the one pipeline on core `c`: the arrays as the region finds them; after the body at point `t`
    each input's buffer at its block, the first result's at the point's quantized rows, the three totals' at `accAt`;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => qBlk (iblk m c 0 t) (iblk m c 1 t)
    | ⟨3, _⟩ => (accAt m c t.val t.isLt).1
    | ⟨4, _⟩ => (accAt m c t.val t.isLt).2.1
    | ⟨5, _⟩ => (accAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = qBlk (iblk m c 0 t) (iblk m c 1 t) := by dsimp only [dats]
theorem after0_3 (c : Dev nD) (t : Fin cfg0.N) : (dats m 0 c).after 3 t = (accAt m c t.val t.isLt).1 := by dsimp only [dats]
theorem after0_4 (c : Dev nD) (t : Fin cfg0.N) : (dats m 0 c).after 4 t = (accAt m c t.val t.isLt).2.1 := by dsimp only [dats]
theorem after0_5 (c : Dev nD) (t : Fin cfg0.N) : (dats m 0 c).after 5 t = (accAt m c t.val t.isLt).2.2 := by dsimp only [dats]

/-- The totals at the first point start from zero. -/
theorem accAt_zero (c : Dev nD) (hn : 0 < cfg0.N) :
    accAt m c 0 hn = (esStep (iblk m c 0 ⟨0, hn⟩) (iblk m c 1 ⟨0, hn⟩) k0_pay4,
      dwStep (iblk m c 0 ⟨0, hn⟩) (iblk m c 1 ⟨0, hn⟩) k0_pay5,
      sseStep (iblk m c 0 ⟨0, hn⟩) (iblk m c 1 ⟨0, hn⟩) k0_pay6) := rfl

/-- The totals at a later point are the point's contribution over what the point before left. -/
theorem accAt_succ (c : Dev nD) (n : ℕ) (hn : n + 1 < cfg0.N) :
    accAt m c (n + 1) hn
      = (esStep (iblk m c 0 ⟨n + 1, hn⟩) (iblk m c 1 ⟨n + 1, hn⟩) (accAt m c n (Nat.lt_of_succ_lt hn)).1,
         dwStep (iblk m c 0 ⟨n + 1, hn⟩) (iblk m c 1 ⟨n + 1, hn⟩) (accAt m c n (Nat.lt_of_succ_lt hn)).2.1,
         sseStep (iblk m c 0 ⟨n + 1, hn⟩) (iblk m c 1 ⟨n + 1, hn⟩) (accAt m c n (Nat.lt_of_succ_lt hn)).2.2) := rfl

end Cert.Proof.KI

end
-- ==== Proof.KI.Tail.lean ====
/-
  The host operations after the region, as the launch needs them: @main is the region continued by these 76 operations;
  they touch only unscoped TensorCore buffers, allocate nothing, and write none of the region's six arrays; and none of
  them writes an argument, so the five arguments end as launched.
-/
import proofs.«178691_j45775761441268_1_alg».proof.Proof.KI.Data
import Idealize.ShloMosaic.Lib.Pipeline.FrameSuffix

noncomputable section

namespace Cert.Proof.KI

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- The buffers the later operations must leave as they are: the five arguments and the region's four results (the
    arguments \`main_arg0\`, \`main_arg1\` and the four results are the region's six arrays). -/
def kept : List (Ref sig .tc) :=
  [main_arg0, main_arg1, main_arg2, main_arg3, main_arg4, main_v0_0, main_v0_1, main_v0_2, main_v0_3]

/-- Every array of the region is one of them. -/
theorem arr_mem_kept : ∀ w, Pipeline.arrRef spec0 w ∈ kept := by decide

/-- A set holding one buffer, which is none of \`kept\`, holds none of \`kept\`. -/
theorem kept_not_mem_singleton {y : Ref sig .tc} (h : ∀ r ∈ kept, r ≠ y) :
    ∀ r ∈ kept, Proc.devRef (τ := τ) .tc r ∉ ({Proc.devRef .tc y} : Finset (DevRef τ sig)) :=
  fun r hr hw => h r hr (Proc.devRef_injective _ (Finset.mem_singleton.mp hw))

set_option maxHeartbeats 4000000 in
/-- None of the 76 operations allocates. -/
theorem hostOps1_fresh : (hostOps1 : List (HloOp τ sig (Elt F))).Forall fun op => op.fresh = ∅ := by
  simp only [List.Forall]; repeat' constructor

set_option maxHeartbeats 4000000 in
/-- Each of the 76 operations writes its own result buffer only, and no result buffer is one of \`kept\`. -/
theorem hostOps1_keeps :
    (hostOps1 : List (HloOp τ sig (Elt F))).Forall fun op => ∀ r ∈ kept, Proc.devRef (τ := τ) .tc r ∉ op.writes := by
  simp only [List.Forall, StableHlo.nullary_writes, StableHlo.unary_writes, StableHlo.binary_writes, StableHlo.reshape_writes]
  repeat' apply And.intro
  all_goals exact kept_not_mem_singleton (by decide)

/-- The same, operation by operation. -/
theorem keeps_of_mem (op : HloOp τ sig (Elt F)) (hop : op ∈ (hostOps1 : List (HloOp τ sig (Elt F)))) (r : Ref sig .tc) (hr : r ∈ kept) :
    Proc.devRef (τ := τ) .tc r ∉ op.writes :=
  (List.forall_iff_forall_mem.mp hostOps1_keeps) op hop r hr

set_option maxHeartbeats 4000000 in  -- the chain equation is matched against the 76 operations' list
/-- @main is the region continued by the later host operations. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- The later operations touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- They write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  exact keeps_of_mem op hop _ (arr_mem_kept w)

/-- An argument that is no array of the region ends as launched: the region passes it by, and no later operation writes it. -/
theorem afterTail_arg (c : Dev nD) (b : Ref sig .tc) (hb : b ∈ kept) (hw : ∀ w, Pipeline.arrRef spec0 w ≠ b) :
    Pipeline.afterTail₀ cfgs (dats m) 0 (V0 m) [hostOps1] c b = m ((c.tc : Thread nD τ).loc b) := by
  unfold Pipeline.afterTail₀
  rw [StableHlo.after_of_forall_not_mem (b := Proc.devRef .tc b) _ _ (fun op hop => by
      rw [List.flatten_cons, List.flatten_nil, List.append_nil] at hop
      exact keeps_of_mem op hop b hb),
    Pipeline.withArrays_of_ne _ c (V0 m c) _ b hw]
  rfl

/-- The frame claim's post from the frame run's: the two staged arguments by the proof data's input arrays, the other
    three because no later operation writes them. -/
theorem frame_of
    (h : θ_run defs (onTc (τ := τ) (main (F := F))) (s₀ m ρ)
      (Pipeline.FramePost cfgs (dats m) 0 (Pipeline.afterTail₀ cfgs (dats m) 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans (A_eq m c 0)),
      ((h c).1 1).trans (((dats m 0 c).arrAt_in 1 rfl _).trans (A_eq m c 1)),
      ((h c).2 main_arg2 (Pipeline.mem_restRefs_of main_arg2 (by decide) (by decide))).trans
        (afterTail_arg m c main_arg2 (by decide) (by decide)),
      ((h c).2 main_arg3 (Pipeline.mem_restRefs_of main_arg3 (by decide) (by decide))).trans
        (afterTail_arg m c main_arg3 (by decide) (by decide)),
      ((h c).2 main_arg4 (Pipeline.mem_restRefs_of main_arg4 (by decide) (by decide))).trans
        (afterTail_arg m c main_arg4 (by decide) (by decide))⟩) h

end Cert.Proof.KI

end
-- ==== Proof.KI.Body.lean ====
/-
  The body of the kernel at one grid point, run on whole staging buffers, and the frame run of the program.

  At the first point the body stores zeros into the three totals' buffers and then adds the block's contribution; at
  every later point it adds the block's contribution to what the point before left there (the buffers are not written
  back in between). In both cases it stores the block's quantized rows into the first result's buffer, whatever that
  held. The inputs' buffers are only read. With these two runs the body meets the pipeline's obligation at every
  point, and the launch theorem for a region followed by host operations gives the program's run.
-/
import proofs.«178691_j45775761441268_1_alg».proof.Proof.KI.Data
import proofs.«178691_j45775761441268_1_alg».proof.Proof.KI.Tail
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point, decided over the grid -/

/-- The body's test "this is the first point", from the grid coordinates. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## One whole-buffer store read back -/

/-- The whole-buffer rectangle's offsets are zero. -/
theorem off0 : (![0, 0] : Fin 2 → ℕ) = fun _ => 0 := funext fun a => by fin_cases a <;> rfl

/-! ## The body's two runs -/

set_option maxHeartbeats 4000000 in
/-- At the first point: the totals' buffers, whatever they held, end at the block's contribution over zero. -/
theorem run_first (c : Dev nD) (i : grid0.Coords) (arg1 : Memref sig .tc .vmem S1024x256 .f32) (harg1 : arg1.IsWhole) (arg2 : Memref sig .tc .vmem S512x256 .f32) (harg2 : arg2.IsWhole) (arg3 : Memref sig .tc .vmem S1024x256 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x1 .f32) (harg6 : arg6.IsWhole) (hc0 : cond0_0 i)
    (x0 : Vec F S1024x256 .f32) (x1 : Vec F S512x256 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (qBlk x0 x1)
            ∗ owns (c : Thread nD τ) arg4 fullShare (esStep x0 x1 k0_pay4)
            ∗ owns (c : Thread nD τ) arg5 fullShare (dwStep x0 x1 k0_pay5)
            ∗ owns (c : Thread nD τ) arg6 fullShare (sseStep x0 x1 k0_pay6)) -∗ K ⟨⟩))
      ⊢ wp frame (wpE (defs₀ (F := F)) Variants.none c none) E (cc0__vq_kernel i arg1 harg1 arg2 harg2 arg3 harg3 arg4 harg4 arg5 harg5 arg6 harg6) K := by
  simp only [cc0__vq_kernel_eq_skeleton]; unfold cc0__vq_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  obtain rfl := harg1.eq_unread hf0; obtain rfl := harg2.eq_unread hf1
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    dsimp only
    rw [View.read_writes_eq_canon _ _ _ (by intro y; refine ⟨_, List.mem_cons_self .., ?_⟩; exact View.mem_set_unit_zero (S := S1024x256) off0 inb_S1024x256_S1024x256_0_0 y), View.canon_unit_zero off0]
    simp only [View.readAt_eq_ld, harg1.read_unread, harg2.read_unread, harg4.read_unread, harg5.read_unread, harg6.read_unread, View.ld_unit_zero (S := S1024x256) off0, View.ld_unit_zero (S := S512x256) off0, View.ld_unit_zero (S := S1x512) off0, View.ld_unit_zero (S := S1x1) off0]
    rfl
  isplitl [H3]
  · iexists _; isplitr
    swap; · iexact H3
    ipureintro
    dsimp only
    sl_unfold_words
    rw [View.read_writes_eq_canon _ _ _ (by intro y; refine ⟨_, List.mem_cons_self .., ?_⟩; exact View.mem_set_unit_zero (S := S1x512) off0 inb_S1x512_S1x512_0_0 y), View.canon_cons_unit_zero off0]
    simp only [View.readAt_eq_ld, harg1.read_unread, harg2.read_unread, View.ld_unit_zero (S := S1024x256) off0, View.ld_unit_zero (S := S512x256) off0, View.readCov_unit_zero (S := S1x512) _ off0]
    rfl
  isplitl [H4]
  · iexists _; isplitr
    swap; · iexact H4
    ipureintro
    dsimp only
    sl_unfold_words
    rw [View.read_writes_eq_canon _ _ _ (by intro y; refine ⟨_, List.mem_cons_self .., ?_⟩; exact View.mem_set_unit_zero (S := S512x256) off0 inb_S512x256_S512x256_0_0 y), View.canon_cons_unit_zero off0]
    simp only [View.readAt_eq_ld, harg1.read_unread, harg2.read_unread, View.ld_unit_zero (S := S1024x256) off0, View.ld_unit_zero (S := S512x256) off0, View.readCov_unit_zero (S := S512x256) _ off0]
    rfl
  iexists _; isplitr
  swap; · iexact H5
  ipureintro
  dsimp only
  sl_unfold_words
  rw [View.read_writes_eq_canon _ _ _ (by intro y; refine ⟨_, List.mem_cons_self .., ?_⟩; exact View.mem_set_unit_zero (S := S1x1) off0 inb_S1x1_S1x1_0_0 y), View.canon_cons_unit_zero off0]
  simp only [View.readAt_eq_ld, harg1.read_unread, harg2.read_unread, View.ld_unit_zero (S := S1024x256) off0, View.ld_unit_zero (S := S512x256) off0, View.readCov_unit_zero (S := S1x1) _ off0]
  rfl

set_option maxHeartbeats 4000000 in
/-- At a later point: the totals' buffers end at the block's contribution over what they held. -/
theorem run_later (c : Dev nD) (i : grid0.Coords) (arg1 : Memref sig .tc .vmem S1024x256 .f32) (harg1 : arg1.IsWhole) (arg2 : Memref sig .tc .vmem S512x256 .f32) (harg2 : arg2.IsWhole) (arg3 : Memref sig .tc .vmem S1024x256 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x1 .f32) (harg6 : arg6.IsWhole) (hc0 : ¬cond0_0 i)
    (x0 : Vec F S1024x256 .f32) (x1 : Vec F S512x256 .f32)
    (xo4 : Vec F S1x512 .f32) (xo5 : Vec F S512x256 .f32) (xo6 : Vec F S1x1 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xo4
        ∗ owns (c : Thread nD τ) arg5 fullShare xo5 ∗ owns (c : Thread nD τ) arg6 fullShare xo6
        ∗ (iprop(owns (c : Thread nD τ) arg1 fullShare x0 ∗ owns (c : Thread nD τ) arg2 fullShare x1
            ∗ owns (c : Thread nD τ) arg3 fullShare (qBlk x0 x1)
            ∗ owns (c : Thread nD τ) arg4 fullShare (esStep x0 x1 xo4)
            ∗ owns (c : Thread nD τ) arg5 fullShare (dwStep x0 x1 xo5)
            ∗ owns (c : Thread nD τ) arg6 fullShare (sseStep x0 x1 xo6)) -∗ K ⟨⟩))
      ⊢ wp frame (wpE (defs₀ (F := F)) Variants.none c none) E (cc0__vq_kernel i arg1 harg1 arg2 harg2 arg3 harg3 arg4 harg4 arg5 harg5 arg6 harg6) K := by
  simp only [cc0__vq_kernel_eq_skeleton]; unfold cc0__vq_kernel_skel
  simp only [k0_part1_eq_skeleton]; unfold k0_part1_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
  obtain rfl := harg1.eq_unread hf0; obtain rfl := harg2.eq_unread hf1
  obtain rfl := harg4.eq_unread hf3; obtain rfl := harg5.eq_unread hf4; obtain rfl := harg6.eq_unread hf5
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    dsimp only
    rw [View.read_writes_eq_canon _ _ _ (by intro y; refine ⟨_, List.mem_cons_self .., ?_⟩; exact View.mem_set_unit_zero (S := S1024x256) off0 inb_S1024x256_S1024x256_0_0 y), View.canon_unit_zero off0]
    simp only [View.readAt_eq_ld, harg1.read_unread, harg2.read_unread, harg4.read_unread, harg5.read_unread, harg6.read_unread, View.ld_unit_zero (S := S1024x256) off0, View.ld_unit_zero (S := S512x256) off0, View.ld_unit_zero (S := S1x512) off0, View.ld_unit_zero (S := S1x1) off0]
    rfl
  isplitl [H3]
  · iexists _; isplitr
    swap; · iexact H3
    ipureintro
    dsimp only
    rw [View.read_writes_eq_canon _ _ _ (by intro y; refine ⟨_, List.mem_cons_self .., ?_⟩; exact View.mem_set_unit_zero (S := S1x512) off0 inb_S1x512_S1x512_0_0 y), View.canon_unit_zero off0]
    simp only [View.readAt_eq_ld, harg1.read_unread, harg2.read_unread, harg4.read_unread, harg5.read_unread, harg6.read_unread, View.ld_unit_zero (S := S1024x256) off0, View.ld_unit_zero (S := S512x256) off0, View.ld_unit_zero (S := S1x512) off0, View.ld_unit_zero (S := S1x1) off0]
    rfl
  isplitl [H4]
  · iexists _; isplitr
    swap; · iexact H4
    ipureintro
    dsimp only
    rw [View.read_writes_eq_canon _ _ _ (by intro y; refine ⟨_, List.mem_cons_self .., ?_⟩; exact View.mem_set_unit_zero (S := S512x256) off0 inb_S512x256_S512x256_0_0 y), View.canon_unit_zero off0]
    simp only [View.readAt_eq_ld, harg1.read_unread, harg2.read_unread, harg4.read_unread, harg5.read_unread, harg6.read_unread, View.ld_unit_zero (S := S1024x256) off0, View.ld_unit_zero (S := S512x256) off0, View.ld_unit_zero (S := S1x512) off0, View.ld_unit_zero (S := S1x1) off0]
    rfl
  iexists _; isplitr
  swap; · iexact H5
  ipureintro
  dsimp only
  rw [View.read_writes_eq_canon _ _ _ (by intro y; refine ⟨_, List.mem_cons_self .., ?_⟩; exact View.mem_set_unit_zero (S := S1x1) off0 inb_S1x1_S1x1_0_0 y), View.canon_unit_zero off0]
  simp only [View.readAt_eq_ld, harg1.read_unread, harg2.read_unread, harg4.read_unread, harg5.read_unread, harg6.read_unread, View.ld_unit_zero (S := S1024x256) off0, View.ld_unit_zero (S := S512x256) off0, View.ld_unit_zero (S := S1x512) off0, View.ld_unit_zero (S := S1x1) off0]
  rfl

/-! ## The staging buffers at a point, and what they hold when the body starts -/

variable (m : (ℓ : Loc nD τ sig) → Buf (Elt F) ℓ) (ρ : Dev nD → PrngReg)

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-- After the first point a total's buffer holds what the point before left: it is not written back in between. -/
theorem before0_3_later (c : Dev nD) (t : Fin cfg0.N) (h0 : ¬t.val % 64 = 0) (d) :
    (dats m 0 c).before 3 t d = (dats m 0 c).after 3 ⟨t.val - 1, Nat.lt_of_le_of_lt (Nat.sub_le _ _) t.isLt⟩ := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
/-- After the first point a total's buffer holds what the point before left: it is not written back in between. -/
theorem before0_4_later (c : Dev nD) (t : Fin cfg0.N) (h0 : ¬t.val % 64 = 0) (d) :
    (dats m 0 c).before 4 t d = (dats m 0 c).after 4 ⟨t.val - 1, Nat.lt_of_le_of_lt (Nat.sub_le _ _) t.isLt⟩ := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
/-- After the first point a total's buffer holds what the point before left: it is not written back in between. -/
theorem before0_5_later (c : Dev nD) (t : Fin cfg0.N) (h0 : ¬t.val % 64 = 0) (d) :
    (dats m 0 c).before 5 t d = (dats m 0 c).after 5 ⟨t.val - 1, Nat.lt_of_le_of_lt (Nat.sub_le _ _) t.isLt⟩ := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]

/-- The totals at the first point. -/
theorem acc_first (c : Dev nD) (t : Fin cfg0.N) (h0 : t.val % 64 = 0) :
    accAt m c t.val t.isLt = (esStep (iblk m c 0 t) (iblk m c 1 t) k0_pay4,
      dwStep (iblk m c 0 t) (iblk m c 1 t) k0_pay5, sseStep (iblk m c 0 t) (iblk m c 1 t) k0_pay6) := by
  obtain ⟨n, hn⟩ := t
  have hN : n < 64 := lt_of_lt_of_eq hn (show cfg0.N = 64 from N_0)
  cases n with
  | zero => exact rfl
  | succ n => exact absurd h0 (by dsimp only; omega)

/-- The totals at a later point, over what the point before left. -/
theorem acc_later (c : Dev nD) (t : Fin cfg0.N) (h0 : ¬t.val % 64 = 0) :
    accAt m c t.val t.isLt
      = (esStep (iblk m c 0 t) (iblk m c 1 t) (accAt m c (t.val - 1) (Nat.lt_of_le_of_lt (Nat.sub_le _ _) t.isLt)).1,
         dwStep (iblk m c 0 t) (iblk m c 1 t) (accAt m c (t.val - 1) (Nat.lt_of_le_of_lt (Nat.sub_le _ _) t.isLt)).2.1,
         sseStep (iblk m c 0 t) (iblk m c 1 t) (accAt m c (t.val - 1) (Nat.lt_of_le_of_lt (Nat.sub_le _ _) t.isLt)).2.2) := by
  obtain ⟨n, hn⟩ := t
  cases n with
  | zero => exact absurd (Nat.zero_mod _) h0
  | succ n => exact rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' buffers hold their blocks; at the first point the totals start afresh, at a later
    point their buffers hold what the point before left; so one of the two runs applies; the invariant passes through
    unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h0 : t.val % 64 = 0
  · rw [acc_first m c t h0]
    iintro ⟨HΦ, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ ((hcond0_0 t).mpr h0) (iblk m c 0 t) (iblk m c 1 t) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc_later m c t h0]
    simp only [before0_3_later m c t h0, before0_4_later m c t h0, before0_5_later m c t h0, after0_3, after0_4, after0_5]
    iintro ⟨HΦ, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ (fun h => h0 ((hcond0_0 t).mp h)) (iblk m c 0 t) (iblk m c 1 t) _ _ _ Set.univ _)
    isplitl [H0]; · iexact H0
    isplitl [H1]; · iexact H1
    isplitl [H2]; · iexists _; iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- From any memory with zero counters every weakly fair execution of @main terminates, and every final state has
    every array of the pipeline at what the proof data say and every other unscoped buffer at what the later host
    operations leave there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end without a fault and its five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (run_main m ρ)

end Cert.Proof.KI

end
-- ==== Proof.KB.Data.lean ====
/-
  What the kernel's region holds, point by point, named before anything is run.

  The grid has 64 points; point `t` sees rows `1024 t … 1024 t + 1023` of the input and the whole codebook. The body
  writes the quantized rows of the point into the first result's block, and adds the point's contribution to three
  running totals that stay in their staging buffers from one point to the next (each total's block is the whole result,
  written back once, after the last point): the assignment mass per code, the assignment-weighted sum of rows per code,
  and the squared error. At the first point the totals start from zero.
  `accAt n` is the triple of totals after point `n`, by recursion on `n`; `dats` is the pipeline's proof data over
  these contents.
-/
import proofs.«178691_j45775761441268_1_alg».proof.Proof.Gen.Kernel.Launch
import proofs.«178691_j45775761441268_1_alg».proof.Proof.Gen.Kernel.Skeleton
import proofs.«178691_j45775761441268_1_alg».proof.Proof.Gen.Kernel.Points
import Idealize.ShloMosaic.Lib.Pipeline.FrameBody
import Idealize.ShloMosaic.Lib.Pipeline.FrameSuffix

noncomputable section

namespace Cert.Proof.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window BodyObligation cellOf)

variable {F : FTy → Type} [FloatOps F]

variable (m : (ℓ : Loc nD τ sig) → Buf (Elt F) ℓ)

/-- Core `c`'s TensorCore buffers when the region is entered, as a valuation: as launched (no host operation comes
    before the region). -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The quantized rows of a block of 1024 rows `x` against the codebook `e`. -/
def qBlk (x : Vec F S1024x256 .f32) (e : Vec F S512x256 .f32) : Vec F S1024x256 .f32 := k0_pay11 x e
/-- The assignment mass per code after a block's contribution is added to `prev`. -/
def esStep (x : Vec F S1024x256 .f32) (e : Vec F S512x256 .f32) (prev : Vec F S1x512 .f32) : Vec F S1x512 .f32 :=
  k0_pay1 (k0_pay9 x e) prev
/-- The assignment-weighted sum of rows per code after a block's contribution is added to `prev`. -/
def dwStep (x : Vec F S1024x256 .f32) (e : Vec F S512x256 .f32) (prev : Vec F S512x256 .f32) : Vec F S512x256 .f32 :=
  k0_pay2 (k0_pay7 x) (k0_pay10 x e) prev
/-- The squared error after a block's contribution is added to `prev`. -/
def sseStep (x : Vec F S1024x256 .f32) (e : Vec F S512x256 .f32) (prev : Vec F S1x1 .f32) : Vec F S1x1 .f32 :=
  k0_pay3 (k0_pay12 x e) prev

/-- The three running totals after point `n`: from zero at the first point, each later point adding its block's
    contribution to what the point before left. -/
def accAt (c : Dev nD) : (n : ℕ) → n < cfg0.N → Vec F S1x512 .f32 × Vec F S512x256 .f32 × Vec F S1x1 .f32
  | 0, hn => (esStep (iblk m c 0 ⟨0, hn⟩) (iblk m c 1 ⟨0, hn⟩) k0_pay4,
              dwStep (iblk m c 0 ⟨0, hn⟩) (iblk m c 1 ⟨0, hn⟩) k0_pay5,
              sseStep (iblk m c 0 ⟨0, hn⟩) (iblk m c 1 ⟨0, hn⟩) k0_pay6)
  | n + 1, hn =>
    (esStep (iblk m c 0 ⟨n + 1, hn⟩) (iblk m c 1 ⟨n + 1, hn⟩) (accAt c n (Nat.lt_of_succ_lt hn)).1,
     dwStep (iblk m c 0 ⟨n + 1, hn⟩) (iblk m c 1 ⟨n + 1, hn⟩) (accAt c n (Nat.lt_of_succ_lt hn)).2.1,
     sseStep (iblk m c 0 ⟨n + 1, hn⟩) (iblk m c 1 ⟨n + 1, hn⟩) (accAt c n (Nat.lt_of_succ_lt hn)).2.2)

/-- The proof data of the one pipeline on core `c`: the arrays as the region finds them; after the body at point `t`
    each input's buffer at its block, the first result's at the point's quantized rows, the three totals' at `accAt`;
    the invariant the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => qBlk (iblk m c 0 t) (iblk m c 1 t)
    | ⟨3, _⟩ => (accAt m c t.val t.isLt).1
    | ⟨4, _⟩ => (accAt m c t.val t.isLt).2.1
    | ⟨5, _⟩ => (accAt m c t.val t.isLt).2.2
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = qBlk (iblk m c 0 t) (iblk m c 1 t) := by dsimp only [dats]
theorem after0_3 (c : Dev nD) (t : Fin cfg0.N) : (dats m 0 c).after 3 t = (accAt m c t.val t.isLt).1 := by dsimp only [dats]
theorem after0_4 (c : Dev nD) (t : Fin cfg0.N) : (dats m 0 c).after 4 t = (accAt m c t.val t.isLt).2.1 := by dsimp only [dats]
theorem after0_5 (c : Dev nD) (t : Fin cfg0.N) : (dats m 0 c).after 5 t = (accAt m c t.val t.isLt).2.2 := by dsimp only [dats]

/-- The totals at the first point start from zero. -/
theorem accAt_zero (c : Dev nD) (hn : 0 < cfg0.N) :
    accAt m c 0 hn = (esStep (iblk m c 0 ⟨0, hn⟩) (iblk m c 1 ⟨0, hn⟩) k0_pay4,
      dwStep (iblk m c 0 ⟨0, hn⟩) (iblk m c 1 ⟨0, hn⟩) k0_pay5,
      sseStep (iblk m c 0 ⟨0, hn⟩) (iblk m c 1 ⟨0, hn⟩) k0_pay6) := rfl

/-- The totals at a later point are the point's contribution over what the point before left. -/
theorem accAt_succ (c : Dev nD) (n : ℕ) (hn : n + 1 < cfg0.N) :
    accAt m c (n + 1) hn
      = (esStep (iblk m c 0 ⟨n + 1, hn⟩) (iblk m c 1 ⟨n + 1, hn⟩) (accAt m c n (Nat.lt_of_succ_lt hn)).1,
         dwStep (iblk m c 0 ⟨n + 1, hn⟩) (iblk m c 1 ⟨n + 1, hn⟩) (accAt m c n (Nat.lt_of_succ_lt hn)).2.1,
         sseStep (iblk m c 0 ⟨n + 1, hn⟩) (iblk m c 1 ⟨n + 1, hn⟩) (accAt m c n (Nat.lt_of_succ_lt hn)).2.2) := rfl

end Cert.Proof.KB

end
-- ==== Proof.KB.Tail.lean ====
/-
  The host operations after the region, as the launch needs them: @main is the region continued by these 76 operations;
  they touch only unscoped TensorCore buffers, allocate nothing, and write none of the region's six arrays; and none of
  them writes an argument, so the five arguments end as launched.
-/
import proofs.«178691_j45775761441268_1_alg».proof.Proof.KB.Data
import Idealize.ShloMosaic.Lib.Pipeline.FrameSuffix

noncomputable section

namespace Cert.Proof.KB

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Pipeline (Dat Cfg Window)

variable {F : FTy → Type} [FloatOps F]
variable (m : (ℓ : Loc nD τ sig) → Buf (Elt F) ℓ) (ρ : Dev nD → PrngReg)

/-- The buffers the later operations must leave as they are: the five arguments and the region's four results (the
    arguments \`main_arg0\`, \`main_arg1\` and the four results are the region's six arrays). -/
def kept : List (Ref sig .tc) :=
  [main_arg0, main_arg1, main_arg2, main_arg3, main_arg4, main_v0_0, main_v0_1, main_v0_2, main_v0_3]

/-- Every array of the region is one of them. -/
theorem arr_mem_kept : ∀ w, Pipeline.arrRef spec0 w ∈ kept := by decide

/-- A set holding one buffer, which is none of \`kept\`, holds none of \`kept\`. -/
theorem kept_not_mem_singleton {y : Ref sig .tc} (h : ∀ r ∈ kept, r ≠ y) :
    ∀ r ∈ kept, Proc.devRef (τ := τ) .tc r ∉ ({Proc.devRef .tc y} : Finset (DevRef τ sig)) :=
  fun r hr hw => h r hr (Proc.devRef_injective _ (Finset.mem_singleton.mp hw))

set_option maxHeartbeats 4000000 in
/-- None of the 76 operations allocates. -/
theorem hostOps1_fresh : (hostOps1 : List (HloOp τ sig (Elt F))).Forall fun op => op.fresh = ∅ := by
  simp only [List.Forall]; repeat' constructor

set_option maxHeartbeats 4000000 in
/-- Each of the 76 operations writes its own result buffer only, and no result buffer is one of \`kept\`. -/
theorem hostOps1_keeps :
    (hostOps1 : List (HloOp τ sig (Elt F))).Forall fun op => ∀ r ∈ kept, Proc.devRef (τ := τ) .tc r ∉ op.writes := by
  simp only [List.Forall, StableHlo.nullary_writes, StableHlo.unary_writes, StableHlo.binary_writes, StableHlo.reshape_writes]
  repeat' apply And.intro
  all_goals exact kept_not_mem_singleton (by decide)

/-- The same, operation by operation. -/
theorem keeps_of_mem (op : HloOp τ sig (Elt F)) (hop : op ∈ (hostOps1 : List (HloOp τ sig (Elt F)))) (r : Ref sig .tc) (hr : r ∈ kept) :
    Proc.devRef (τ := τ) .tc r ∉ op.writes :=
  (List.forall_iff_forall_mem.mp hostOps1_keeps) op hop r hr

set_option maxHeartbeats 4000000 in  -- the chain equation is matched against the 76 operations' list
/-- @main is the region continued by the later host operations. -/
theorem hmain (𝒱₀ : Variants) :
    Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [] [hostOps1] (by simp only [List.Forall]) (by simp only [List.Forall]) main_chain

/-- The later operations touch the pipeline's arrays and the bypassing buffers only. -/
theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  subst hops
  exact Pipeline.sub_ucRefs op ((List.forall_iff_forall_mem.mp hostOps1_sub) op hop)

/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  subst hops
  exact (List.forall_iff_forall_mem.mp hostOps1_fresh) op hop

/-- They write no array of the pipeline. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  subst hops
  exact keeps_of_mem op hop _ (arr_mem_kept w)

/-- An argument that is no array of the region ends as launched: the region passes it by, and no later operation writes it. -/
theorem afterTail_arg (c : Dev nD) (b : Ref sig .tc) (hb : b ∈ kept) (hw : ∀ w, Pipeline.arrRef spec0 w ≠ b) :
    Pipeline.afterTail₀ cfgs (dats m) 0 (V0 m) [hostOps1] c b = m ((c.tc : Thread nD τ).loc b) := by
  unfold Pipeline.afterTail₀
  rw [StableHlo.after_of_forall_not_mem (b := Proc.devRef .tc b) _ _ (fun op hop => by
      rw [List.flatten_cons, List.flatten_nil, List.append_nil] at hop
      exact keeps_of_mem op hop b hb),
    Pipeline.withArrays_of_ne _ c (V0 m c) _ b hw]
  rfl

/-- The frame claim's post from the frame run's: the two staged arguments by the proof data's input arrays, the other
    three because no later operation writes them. -/
theorem frame_of
    (h : θ_run defs (onTc (τ := τ) (main (F := F))) (s₀ m ρ)
      (Pipeline.FramePost cfgs (dats m) 0 (Pipeline.afterTail₀ cfgs (dats m) 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).1 0).trans (((dats m 0 c).arrAt_in 0 rfl _).trans (A_eq m c 0)),
      ((h c).1 1).trans (((dats m 0 c).arrAt_in 1 rfl _).trans (A_eq m c 1)),
      ((h c).2 main_arg2 (Pipeline.mem_restRefs_of main_arg2 (by decide) (by decide))).trans
        (afterTail_arg m c main_arg2 (by decide) (by decide)),
      ((h c).2 main_arg3 (Pipeline.mem_restRefs_of main_arg3 (by decide) (by decide))).trans
        (afterTail_arg m c main_arg3 (by decide) (by decide)),
      ((h c).2 main_arg4 (Pipeline.mem_restRefs_of main_arg4 (by decide) (by decide))).trans
        (afterTail_arg m c main_arg4 (by decide) (by decide))⟩) h

end Cert.Proof.KB

end
-- ==== Proof.KB.Body.lean ====
/-
  The body of the kernel at one grid point, run on whole staging buffers, and the frame run of the program.

  At the first point the body stores zeros into the three totals' buffers and then adds the block's contribution; at
  every later point it adds the block's contribution to what the point before left there (the buffers are not written
  back in between). In both cases it stores the block's quantized rows into the first result's buffer, whatever that
  held. The inputs' buffers are only read. With these two runs the body meets the pipeline's obligation at every
  point, and the launch theorem for a region followed by host operations gives the program's run.
-/
import proofs.«178691_j45775761441268_1_alg».proof.Proof.KB.Data
import proofs.«178691_j45775761441268_1_alg».proof.Proof.KB.Tail
import Idealize.ShloMosaic.Lib.Pipeline.FrameBody
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.Proof.KB

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The first point, decided over the grid -/

/-- The body's test "this is the first point", from the grid coordinates. -/
abbrev cond0_0 (i : grid0.Coords) : Prop := (Scalar.cmpi .ne (Scalar.extui (Scalar.cmpi .eq (BitVec.ofNat 32 (i 0).val) 0#32)) 0#32) = 1#1
/-- It holds at point 0 only. -/
theorem hcond0_0 : ∀ t : Fin cfg0.N, cond0_0 (grid0.coords t) ↔ t.val % 64 = 0 :=
  (by decide +kernel : ∀ t : Fin grid0.N, cond0_0 (grid0.coords t) ↔ t.val % 64 = 0)

/-! ## One whole-buffer store read back -/

/-- The whole-buffer rectangle's offsets are zero. -/
theorem off0 : (![0, 0] : Fin 2 → ℕ) = fun _ => 0 := funext fun a => by fin_cases a <;> rfl

/-! ## The body's two runs -/

set_option maxHeartbeats 4000000 in
/-- At the first point: the totals' buffers, whatever they held, end at the block's contribution over zero. -/
theorem run_first (c : Dev nD) (i : grid0.Coords) (arg1 : Memref sig .tc .vmem S1024x256 .f32) (harg1 : arg1.IsWhole) (arg2 : Memref sig .tc .vmem S512x256 .f32) (harg2 : arg2.IsWhole) (arg3 : Memref sig .tc .vmem S1024x256 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x1 .f32) (harg6 : arg6.IsWhole) (hc0 : cond0_0 i)
    (x0 : Vec F S1024x256 .f32) (x1 : Vec F S512x256 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1
            ∗ owns (c : Thread nD τ) arg3 fullShare (qBlk x0 x1)
            ∗ owns (c : Thread nD τ) arg4 fullShare (esStep x0 x1 k0_pay4)
            ∗ owns (c : Thread nD τ) arg5 fullShare (dwStep x0 x1 k0_pay5)
            ∗ owns (c : Thread nD τ) arg6 fullShare (sseStep x0 x1 k0_pay6)) -∗ K ⟨⟩))
      ⊢ wp frame (wpE (defs₀ (F := F)) Variants.none c none) E (cc0__vq_kernel i arg1 harg1 arg2 harg2 arg3 harg3 arg4 harg4 arg5 harg5 arg6 harg6) K := by
  simp only [cc0__vq_kernel_eq_skeleton]; unfold cc0__vq_kernel_skel
  simp only [k0_part1_eq_skeleton]; unfold k0_part1_skel
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, Hk⟩
  obtain rfl := harg1.eq_unread hf0; obtain rfl := harg2.eq_unread hf1
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    dsimp only
    rw [View.read_writes_eq_canon _ _ _ (by intro y; refine ⟨_, List.mem_cons_self .., ?_⟩; exact View.mem_set_unit_zero (S := S1024x256) off0 inb_S1024x256_S1024x256_0_0 y), View.canon_unit_zero off0]
    simp only [View.readAt_eq_ld, harg1.read_unread, harg2.read_unread, harg4.read_unread, harg5.read_unread, harg6.read_unread, View.ld_unit_zero (S := S1024x256) off0, View.ld_unit_zero (S := S512x256) off0, View.ld_unit_zero (S := S1x512) off0, View.ld_unit_zero (S := S1x1) off0]
    rfl
  isplitl [H3]
  · iexists _; isplitr
    swap; · iexact H3
    ipureintro
    dsimp only
    sl_unfold_words
    rw [View.read_writes_eq_canon _ _ _ (by intro y; refine ⟨_, List.mem_cons_self .., ?_⟩; exact View.mem_set_unit_zero (S := S1x512) off0 inb_S1x512_S1x512_0_0 y), View.canon_cons_unit_zero off0]
    simp only [View.readAt_eq_ld, harg1.read_unread, harg2.read_unread, View.ld_unit_zero (S := S1024x256) off0, View.ld_unit_zero (S := S512x256) off0, View.readCov_unit_zero (S := S1x512) _ off0]
    rfl
  isplitl [H4]
  · iexists _; isplitr
    swap; · iexact H4
    ipureintro
    dsimp only
    sl_unfold_words
    rw [View.read_writes_eq_canon _ _ _ (by intro y; refine ⟨_, List.mem_cons_self .., ?_⟩; exact View.mem_set_unit_zero (S := S512x256) off0 inb_S512x256_S512x256_0_0 y), View.canon_cons_unit_zero off0]
    simp only [View.readAt_eq_ld, harg1.read_unread, harg2.read_unread, View.ld_unit_zero (S := S1024x256) off0, View.ld_unit_zero (S := S512x256) off0, View.readCov_unit_zero (S := S512x256) _ off0]
    rfl
  iexists _; isplitr
  swap; · iexact H5
  ipureintro
  dsimp only
  sl_unfold_words
  rw [View.read_writes_eq_canon _ _ _ (by intro y; refine ⟨_, List.mem_cons_self .., ?_⟩; exact View.mem_set_unit_zero (S := S1x1) off0 inb_S1x1_S1x1_0_0 y), View.canon_cons_unit_zero off0]
  simp only [View.readAt_eq_ld, harg1.read_unread, harg2.read_unread, View.ld_unit_zero (S := S1024x256) off0, View.ld_unit_zero (S := S512x256) off0, View.readCov_unit_zero (S := S1x1) _ off0]
  rfl

set_option maxHeartbeats 4000000 in
/-- At a later point: the totals' buffers end at the block's contribution over what they held. -/
theorem run_later (c : Dev nD) (i : grid0.Coords) (arg1 : Memref sig .tc .vmem S1024x256 .f32) (harg1 : arg1.IsWhole) (arg2 : Memref sig .tc .vmem S512x256 .f32) (harg2 : arg2.IsWhole) (arg3 : Memref sig .tc .vmem S1024x256 .f32) (harg3 : arg3.IsWhole) (arg4 : Memref sig .tc .vmem S1x512 .f32) (harg4 : arg4.IsWhole) (arg5 : Memref sig .tc .vmem S512x256 .f32) (harg5 : arg5.IsWhole) (arg6 : Memref sig .tc .vmem S1x1 .f32) (harg6 : arg6.IsWhole) (hc0 : ¬cond0_0 i)
    (x0 : Vec F S1024x256 .f32) (x1 : Vec F S512x256 .f32)
    (xo4 : Vec F S1x512 .f32) (xo5 : Vec F S512x256 .f32) (xo6 : Vec F S1x1 .f32) (E : Set ℕ) (K : PUnit → sProp 𝕄) :
    iprop(owns (c : Thread nD τ) arg1 fullShare x0 ∗ owns (c : Thread nD τ) arg2 fullShare x1
        ∗ (∃ d, owns (c : Thread nD τ) arg3 fullShare d) ∗ owns (c : Thread nD τ) arg4 fullShare xo4
        ∗ owns (c : Thread nD τ) arg5 fullShare xo5 ∗ owns (c : Thread nD τ) arg6 fullShare xo6
        ∗ (iprop(owns (c : Thread nD τ) arg1 fullShare x0 ∗ owns (c : Thread nD τ) arg2 fullShare x1
            ∗ owns (c : Thread nD τ) arg3 fullShare (qBlk x0 x1)
            ∗ owns (c : Thread nD τ) arg4 fullShare (esStep x0 x1 xo4)
            ∗ owns (c : Thread nD τ) arg5 fullShare (dwStep x0 x1 xo5)
            ∗ owns (c : Thread nD τ) arg6 fullShare (sseStep x0 x1 xo6)) -∗ K ⟨⟩))
      ⊢ wp frame (wpE (defs₀ (F := F)) Variants.none c none) E (cc0__vq_kernel i arg1 harg1 arg2 harg2 arg3 harg3 arg4 harg4 arg5 harg5 arg6 harg6) K := by
  simp only [cc0__vq_kernel_eq_skeleton]; unfold cc0__vq_kernel_skel
  simp only [k0_part1_eq_skeleton]; unfold k0_part1_skel
  unfold owns
  iintro ⟨⟨%f0, %hf0, H0⟩, ⟨%f1, %hf1, H1⟩, ⟨%d2, %f2, -, H2⟩, ⟨%f3, %hf3, H3⟩, ⟨%f4, %hf4, H4⟩, ⟨%f5, %hf5, H5⟩, Hk⟩
  obtain rfl := harg1.eq_unread hf0; obtain rfl := harg2.eq_unread hf1
  obtain rfl := harg4.eq_unread hf3; obtain rfl := harg5.eq_unread hf4; obtain rfl := harg6.eq_unread hf5
  sl_exec (disch := first | exact hc0)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr
    swap; · iexact H2
    ipureintro
    dsimp only
    rw [View.read_writes_eq_canon _ _ _ (by intro y; refine ⟨_, List.mem_cons_self .., ?_⟩; exact View.mem_set_unit_zero (S := S1024x256) off0 inb_S1024x256_S1024x256_0_0 y), View.canon_unit_zero off0]
    simp only [View.readAt_eq_ld, harg1.read_unread, harg2.read_unread, harg4.read_unread, harg5.read_unread, harg6.read_unread, View.ld_unit_zero (S := S1024x256) off0, View.ld_unit_zero (S := S512x256) off0, View.ld_unit_zero (S := S1x512) off0, View.ld_unit_zero (S := S1x1) off0]
    rfl
  isplitl [H3]
  · iexists _; isplitr
    swap; · iexact H3
    ipureintro
    dsimp only
    rw [View.read_writes_eq_canon _ _ _ (by intro y; refine ⟨_, List.mem_cons_self .., ?_⟩; exact View.mem_set_unit_zero (S := S1x512) off0 inb_S1x512_S1x512_0_0 y), View.canon_unit_zero off0]
    simp only [View.readAt_eq_ld, harg1.read_unread, harg2.read_unread, harg4.read_unread, harg5.read_unread, harg6.read_unread, View.ld_unit_zero (S := S1024x256) off0, View.ld_unit_zero (S := S512x256) off0, View.ld_unit_zero (S := S1x512) off0, View.ld_unit_zero (S := S1x1) off0]
    rfl
  isplitl [H4]
  · iexists _; isplitr
    swap; · iexact H4
    ipureintro
    dsimp only
    rw [View.read_writes_eq_canon _ _ _ (by intro y; refine ⟨_, List.mem_cons_self .., ?_⟩; exact View.mem_set_unit_zero (S := S512x256) off0 inb_S512x256_S512x256_0_0 y), View.canon_unit_zero off0]
    simp only [View.readAt_eq_ld, harg1.read_unread, harg2.read_unread, harg4.read_unread, harg5.read_unread, harg6.read_unread, View.ld_unit_zero (S := S1024x256) off0, View.ld_unit_zero (S := S512x256) off0, View.ld_unit_zero (S := S1x512) off0, View.ld_unit_zero (S := S1x1) off0]
    rfl
  iexists _; isplitr
  swap; · iexact H5
  ipureintro
  dsimp only
  rw [View.read_writes_eq_canon _ _ _ (by intro y; refine ⟨_, List.mem_cons_self .., ?_⟩; exact View.mem_set_unit_zero (S := S1x1) off0 inb_S1x1_S1x1_0_0 y), View.canon_unit_zero off0]
  simp only [View.readAt_eq_ld, harg1.read_unread, harg2.read_unread, harg4.read_unread, harg5.read_unread, harg6.read_unread, View.ld_unit_zero (S := S1024x256) off0, View.ld_unit_zero (S := S512x256) off0, View.ld_unit_zero (S := S1x512) off0, View.ld_unit_zero (S := S1x1) off0]
  rfl

/-! ## The staging buffers at a point, and what they hold when the body starts -/

variable (m : (ℓ : Loc nD τ sig) → Buf (Elt F) ℓ) (ρ : Dev nD → PrngReg)

abbrev ms0_0 (t : Fin cfg0.N) : Memref sig .tc .vmem S1024x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1 .f32 := win0_5.stage (cfg0.slots t 5)
abbrev hs0_5 (t : Fin cfg0.N) : (ms0_5 t).IsWhole := hstage0_5 ((cfg0.slots t 5).cast nbuf0_5)

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl)
      (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl)
      (fun t => by rw [after0_1]; unfold Dat.blockOf iblk; rw [A_eq]; try rfl) t d).trans
    (by unfold Dat.fetched Dat.blockOf iblk; rw [A_eq]; try rfl)

/-- After the first point a total's buffer holds what the point before left: it is not written back in between. -/
theorem before0_3_later (c : Dev nD) (t : Fin cfg0.N) (h0 : ¬t.val % 64 = 0) (d) :
    (dats m 0 c).before 3 t d = (dats m 0 c).after 3 ⟨t.val - 1, Nat.lt_of_le_of_lt (Nat.sub_le _ _) t.isLt⟩ := by
  have hN : t.val < 64 := lt_of_lt_of_eq t.isLt (show cfg0.N = 64 from N_0)
  rw [Dat.before_out_kept _ 3 rfl t (by omega) (Bool.eq_false_iff.mpr fun h => by have := (flush0_3 _).mp h; dsimp only at this; omega)
    (fun _ => rfl) (fun _ _ => rfl)]
/-- After the first point a total's buffer holds what the point before left: it is not written back in between. -/
theorem before0_4_later (c : Dev nD) (t : Fin cfg0.N) (h0 : ¬t.val % 64 = 0) (d) :
    (dats m 0 c).before 4 t d = (dats m 0 c).after 4 ⟨t.val - 1, Nat.lt_of_le_of_lt (Nat.sub_le _ _) t.isLt⟩ := by
  have hN : t.val < 64 := lt_of_lt_of_eq t.isLt (show cfg0.N = 64 from N_0)
  rw [Dat.before_out_kept _ 4 rfl t (by omega) (Bool.eq_false_iff.mpr fun h => by have := (flush0_4 _).mp h; dsimp only at this; omega)
    (fun _ => rfl) (fun _ _ => rfl)]
/-- After the first point a total's buffer holds what the point before left: it is not written back in between. -/
theorem before0_5_later (c : Dev nD) (t : Fin cfg0.N) (h0 : ¬t.val % 64 = 0) (d) :
    (dats m 0 c).before 5 t d = (dats m 0 c).after 5 ⟨t.val - 1, Nat.lt_of_le_of_lt (Nat.sub_le _ _) t.isLt⟩ := by
  have hN : t.val < 64 := lt_of_lt_of_eq t.isLt (show cfg0.N = 64 from N_0)
  rw [Dat.before_out_kept _ 5 rfl t (by omega) (Bool.eq_false_iff.mpr fun h => by have := (flush0_5 _).mp h; dsimp only at this; omega)
    (fun _ => rfl) (fun _ _ => rfl)]

/-- The totals at the first point. -/
theorem acc_first (c : Dev nD) (t : Fin cfg0.N) (h0 : t.val % 64 = 0) :
    accAt m c t.val t.isLt = (esStep (iblk m c 0 t) (iblk m c 1 t) k0_pay4,
      dwStep (iblk m c 0 t) (iblk m c 1 t) k0_pay5, sseStep (iblk m c 0 t) (iblk m c 1 t) k0_pay6) := by
  obtain ⟨n, hn⟩ := t
  have hN : n < 64 := lt_of_lt_of_eq hn (show cfg0.N = 64 from N_0)
  cases n with
  | zero => exact rfl
  | succ n => exact absurd h0 (by dsimp only; omega)

/-- The totals at a later point, over what the point before left. -/
theorem acc_later (c : Dev nD) (t : Fin cfg0.N) (h0 : ¬t.val % 64 = 0) :
    accAt m c t.val t.isLt
      = (esStep (iblk m c 0 t) (iblk m c 1 t) (accAt m c (t.val - 1) (Nat.lt_of_le_of_lt (Nat.sub_le _ _) t.isLt)).1,
         dwStep (iblk m c 0 t) (iblk m c 1 t) (accAt m c (t.val - 1) (Nat.lt_of_le_of_lt (Nat.sub_le _ _) t.isLt)).2.1,
         sseStep (iblk m c 0 t) (iblk m c 1 t) (accAt m c (t.val - 1) (Nat.lt_of_le_of_lt (Nat.sub_le _ _) t.isLt)).2.2) := by
  obtain ⟨n, hn⟩ := t
  cases n with
  | zero => exact absurd (Nat.zero_mod _) h0
  | succ n => exact rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 1600000 in
/-- The body at any point: the inputs' buffers hold their blocks; at the first point the totals start afresh, at a later
    point their buffers hold what the point before left; so one of the two runs applies; the invariant passes through
    unread and the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  by_cases h0 : t.val % 64 = 0
  · rw [acc_first m c t h0]
    iintro ⟨HΦ, Ho, ⟨%d0, H0⟩, ⟨%d1, H1⟩, ⟨%d2, H2⟩, ⟨%d3, H3⟩, ⟨%d4, H4⟩, ⟨%d5, H5⟩⟩
    iapply (run_first c (grid0.coords t) _ _ _ _ _ _ _ _ _ _ _ _ ((hcond0_0 t).mpr h0) (iblk m c 0 t) (iblk m c 1 t) Set.univ _)
    isplitl [H0]; · iexact H0
    isplitl [H1]; · iexact H1
    isplitl [H2]; · iexists _; iexact H2
    isplitl [H3]; · iexists _; iexact H3
    isplitl [H4]; · iexists _; iexact H4
    isplitl [H5]; · iexists _; iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5
  · rw [acc_later m c t h0]
    simp only [before0_3_later m c t h0, before0_4_later m c t h0, before0_5_later m c t h0, after0_3, after0_4, after0_5]
    iintro ⟨HΦ, Ho, ⟨%d0, H0⟩, ⟨%d1, H1⟩, ⟨%d2, H2⟩, ⟨%d3, H3⟩, ⟨%d4, H4⟩, ⟨%d5, H5⟩⟩
    iapply (run_later c (grid0.coords t) _ _ _ _ _ _ _ _ _ _ _ _ (fun h => h0 ((hcond0_0 t).mp h)) (iblk m c 0 t) (iblk m c 1 t) _ _ _ Set.univ _)
    isplitl [H0]; · iexact H0
    isplitl [H1]; · iexact H1
    isplitl [H2]; · iexists _; iexact H2
    isplitl [H3]; · iexact H3
    isplitl [H4]; · iexact H4
    isplitl [H5]; · iexact H5
    iintro ⟨H0, H1, H2, H3, H4, H5⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    iexact H5

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option maxHeartbeats 4000000 in
set_option backward.isDefEq.respectTransparency.types false in
/-- From any memory with zero counters every weakly fair execution of @main terminates, and every final state has
    every array of the pipeline at what the proof data say and every other unscoped buffer at what the later host
    operations leave there. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The program runs to its end without a fault and its five arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (run_main m ρ)

end Cert.Proof.KB

end
-- ==== Proof.KV.Arrays.lean ====
/-
  The region's arrays after its last point, read off the proof data: the first result's array is, block by block, what
  each point wrote; each total's array is what the last point left in its buffer (the block is the whole array, written
  back once). And what a block of an input is: rows `1024 t … 1024 t + 1023` of the first argument, the whole second.
-/
import proofs.«178691_j45775761441268_1_alg».proof.Proof.KI.Data
import Idealize.ShloMosaic.Lib.ValueIdx
import Idealize.ShloMosaic.Lib.Pipeline.Value

noncomputable section

namespace Cert.Proof.KV

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Proof.KI

variable {F : FTy → Type} [FloatOps F]
variable (m : (ℓ : Loc nD τ sig) → Buf (Elt F) ℓ) (c : Dev nD)

/-- The last of the 64 points. -/
theorem lastPt : 63 < cfg0.N := lt_of_lt_of_eq (by norm_num : 63 < 64) N_0.symm

/-- Row `p` of block `t` is row `1024 t + p` of the array. -/
def rowIx (t : Fin cfg0.N) (p : Fin 1024) : Fin 65536 :=
  ⟨1024 * t.val + p.val, by have h : t.val < 64 := lt_of_lt_of_eq t.isLt N_0; omega⟩
/-- The block that holds row `r`, and the row's place in it. -/
def blkOf (r : Fin 65536) : Fin cfg0.N := ⟨r.val / 1024, lt_of_lt_of_eq (by omega : r.val / 1024 < 64) N_0.symm⟩
def inBlk (r : Fin 65536) : Fin 1024 := ⟨r.val % 1024, by omega⟩

/-- The first argument as a matrix, the second as a matrix. -/
abbrev X0 : Vec F S65536x256 .f32 := m ((c : Thread nD τ).loc main_arg0)
abbrev X1 : Vec F S512x256 .f32 := m ((c : Thread nD τ).loc main_arg1)

/-- The index maps of the two inputs, decided once over the grid: the first input's block index is the point on the
    rows and zero on the columns; the second's is zero on both axes. -/
theorem Arrays.idx_in0 : ∀ t : Fin cfg0.N, win0_0.index t 0 = t.val ∧ win0_0.index t 1 = 0 :=
  (by decide +kernel : ∀ t : Fin grid0.N, win0_0.index t 0 = t.val ∧ win0_0.index t 1 = 0)
theorem Arrays.idx_in1 : ∀ t : Fin cfg0.N, win0_1.index t 0 = 0 ∧ win0_1.index t 1 = 0 :=
  (by decide +kernel : ∀ t : Fin grid0.N, win0_1.index t 0 = 0 ∧ win0_1.index t 1 = 0)

/-- A block of the first input at point `t`: rows `1024 t …` of the first argument. -/
theorem iblk0_apply (t : Fin cfg0.N) (p : Fin 1024) (d : Fin 256) :
    (iblk m c 0 t : Vec F S1024x256 .f32) (ix2 p d) = X0 m c (ix2 (rowIx t p) d) := by
  obtain ⟨e0, e1⟩ := Arrays.idx_in0 t
  unfold iblk
  rw [View.read_apply]
  show m ((c : Thread nD τ).loc main_arg0) _ = m ((c : Thread nD τ).loc main_arg0) _
  congr 1
  funext a
  apply Fin.ext
  match a with
  | ⟨0, _⟩ => show win0_0.index t 0 * 1024 + 1 * p.val = 1024 * t.val + p.val; rw [e0]; omega
  | ⟨1, _⟩ => show win0_0.index t 1 * 256 + 1 * d.val = d.val; rw [e1]; omega

/-- The block of the second input at every point: the whole second argument. -/
theorem iblk1_eq (t : Fin cfg0.N) : (iblk m c 1 t : Vec F S512x256 .f32) = X1 m c := by
  obtain ⟨e0, e1⟩ := Arrays.idx_in1 t
  have hz : (fun a => (win0_1.index t) a * main_arg1.ty.shape.size a) = fun _ => 0 :=
    funext fun a => by
      match a with
      | ⟨0, _⟩ => show win0_1.index t 0 * 512 = 0; rw [e0]
      | ⟨1, _⟩ => show win0_1.index t 1 * 256 = 0; rw [e1]
  exact Memref.read_access_unit_zero (Elt F) main_arg1 hz _ _

/-- The index maps of the four results, decided once over the grid: the first result's block index is the point on the
    rows and zero on the columns; each total's is zero on both axes. -/
theorem Arrays.idx_q : ∀ t : Fin cfg0.N, win0_2.index t 0 = t.val ∧ win0_2.index t 1 = 0 :=
  (by decide +kernel : ∀ t : Fin grid0.N, win0_2.index t 0 = t.val ∧ win0_2.index t 1 = 0)
theorem Arrays.idx_es : ∀ t : Fin cfg0.N, win0_3.index t 0 = 0 ∧ win0_3.index t 1 = 0 :=
  (by decide +kernel : ∀ t : Fin grid0.N, win0_3.index t 0 = 0 ∧ win0_3.index t 1 = 0)
theorem Arrays.idx_dw : ∀ t : Fin cfg0.N, win0_4.index t 0 = 0 ∧ win0_4.index t 1 = 0 :=
  (by decide +kernel : ∀ t : Fin grid0.N, win0_4.index t 0 = 0 ∧ win0_4.index t 1 = 0)
theorem Arrays.idx_sse : ∀ t : Fin cfg0.N, win0_5.index t 0 = 0 ∧ win0_5.index t 1 = 0 :=
  (by decide +kernel : ∀ t : Fin grid0.N, win0_5.index t 0 = 0 ∧ win0_5.index t 1 = 0)

/-! ## The first result: one function of the row, block by block -/

/-- What the first result's array ends holding: row `r` is row `r mod 1024` of the quantized rows of block
    `r / 1024`. -/
def Arrays.qAll : Vec F S65536x256 .f32 := fun i =>
  qBlk (iblk m c 0 (blkOf (i 0))) (iblk m c 1 (blkOf (i 0))) (ix2 (inBlk (i 0)) (i 1))

/-- At an index of block `t`, row `p` of the block, it is the quantized rows of block `t` at row `p`. -/
theorem Arrays.qAll_at (t : Fin cfg0.N) (p : Fin 1024) (d : Fin 256) (i : S65536x256.Idx)
    (h0 : (i 0).val = 1024 * t.val + p.val) (h1 : (i 1).val = d.val) :
    Arrays.qAll m c i = qBlk (iblk m c 0 t) (iblk m c 1 t) (ix2 p d) := by
  have hb : blkOf (i 0) = t := Fin.ext (by show (i 0).val / 1024 = t.val; omega)
  have hp : inBlk (i 0) = p := Fin.ext (by show (i 0).val % 1024 = p.val; omega)
  have hd : i 1 = d := Fin.ext h1
  subst hb
  unfold Arrays.qAll
  rw [hp, hd]

/-- What point `t` writes back is block `t` of that function. -/
theorem Arrays.flushed_q (t : Fin cfg0.N) :
    (dats m 0 c).flushed 2 t = ((cfg0.win 2).blk t).view.read (Elt F) (Arrays.qAll m c) := by
  obtain ⟨e0, e1⟩ := Arrays.idx_q t
  show (cfg0.win 2).cut (grid0.coords t) ((dats m 0 c).after 2 t) = _
  rw [after0_2]
  funext j
  rw [View.read_apply]
  show qBlk (iblk m c 0 t) (iblk m c 1 t) j = Arrays.qAll m c (((cfg0.win 2).blk t).view.emb j)
  rw [eq_ix2 j]
  refine (Arrays.qAll_at m c t (j 0) (j 1) _ ?_ ?_).symm
  · show win0_2.index t 0 * 1024 + 1 * (j 0).val = 1024 * t.val + (j 0).val; rw [e0]; omega
  · show win0_2.index t 1 * 256 + 1 * (j 1).val = (j 1).val; rw [e1]; omega

/-- An index of the array is in point `t`'s block iff each coordinate is in the block's range on its axis. -/
theorem Arrays.mem_blk_q (t : Fin cfg0.N) (i : S65536x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v0_0).slice (win0_2.rect t)).set ↔ _
  rw [View.set_slice_whole, Rect.mem_set_unit]
  exact Iff.rfl

/-- Every row is in the block of the point `r / 1024`, and every point writes its block back. -/
theorem Arrays.cover_q (i : S65536x256.Idx) :
    ∃ t : Fin cfg0.N, (cfg0.win 2).flush t = true ∧ i ∈ ((cfg0.win 2).blk t).view.set := by
  refine ⟨blkOf (i 0), flush0_2 _, ?_⟩
  obtain ⟨e0, e1⟩ := Arrays.idx_q (blkOf (i 0))
  have hb : (blkOf (i 0)).val = (i 0).val / 1024 := rfl
  have hi0 : (i 0).val < 65536 := (i 0).isLt
  have hi1 : (i 1).val < 256 := (i 1).isLt
  rw [Arrays.mem_blk_q]
  intro a
  match a with
  | ⟨0, _⟩ => show win0_2.index (blkOf (i 0)) 0 * 1024 ≤ (i 0).val ∧ (i 0).val < win0_2.index (blkOf (i 0)) 0 * 1024 + 1024; rw [e0, hb]; omega
  | ⟨1, _⟩ => show win0_2.index (blkOf (i 0)) 1 * 256 ≤ (i 1).val ∧ (i 1).val < win0_2.index (blkOf (i 0)) 1 * 256 + 256; rw [e1]; omega

/-- The first result's array after the run: row `r` is what its block's point wrote. -/
theorem final_q (r : Fin 65536) (j : Fin 256) :
    ((dats m 0 c).arrAt 2 cfg0.N : Vec F S65536x256 .f32) (ix2 r j)
      = qBlk (iblk m c 0 (blkOf r)) (iblk m c 1 (blkOf r)) (ix2 (inBlk r) j) := by
  have h := (dats m 0 c).arrAt_eq_of_cover 2 (Arrays.qAll m c) (fun t _ => Arrays.flushed_q m c t) (Arrays.cover_q)
  rw [h]
  rfl

/-! ## The three totals: the block is the whole array, written back once, after the last point -/

/-- The last point writes each total's block back. -/
theorem Arrays.flush_last_es : (cfg0.win 3).flush ⟨63, lastPt⟩ = true := (flush0_3 ⟨63, lastPt⟩).mpr rfl
theorem Arrays.flush_last_dw : (cfg0.win 4).flush ⟨63, lastPt⟩ = true := (flush0_4 ⟨63, lastPt⟩).mpr rfl
theorem Arrays.flush_last_sse : (cfg0.win 5).flush ⟨63, lastPt⟩ = true := (flush0_5 ⟨63, lastPt⟩).mpr rfl

/-- The 64 points are the 63 before the last, and the last. -/
theorem Arrays.N_eq_last_succ : cfg0.N = (⟨63, lastPt⟩ : Fin cfg0.N).val + 1 := N_0

/-- Each total's array after the run is what the last point left. -/
theorem final_es : ((dats m 0 c).arrAt 3 cfg0.N : Vec F S1x512 .f32) = (accAt m c 63 lastPt).1 := by
  obtain ⟨e0, e1⟩ := Arrays.idx_es ⟨63, lastPt⟩
  have hz : (fun a => (win0_3.index ⟨63, lastPt⟩) a * main_v0_1.ty.shape.size a) = fun _ => 0 :=
    funext fun a => by
      match a with
      | ⟨0, _⟩ => show win0_3.index ⟨63, lastPt⟩ 0 * 1 = 0; rw [e0]
      | ⟨1, _⟩ => show win0_3.index ⟨63, lastPt⟩ 1 * 512 = 0; rw [e1]
  rw [congrArg ((dats m 0 c).arrAt 3) Arrays.N_eq_last_succ, (dats m 0 c).arrAt_succ 3 ⟨63, lastPt⟩, if_pos Arrays.flush_last_es]
  exact (Memref.write_access_unit_zero_univ (Elt F) main_v0_1 hz _ _ _).trans (after0_3 m c ⟨63, lastPt⟩)
theorem final_dw : ((dats m 0 c).arrAt 4 cfg0.N : Vec F S512x256 .f32) = (accAt m c 63 lastPt).2.1 := by
  obtain ⟨e0, e1⟩ := Arrays.idx_dw ⟨63, lastPt⟩
  have hz : (fun a => (win0_4.index ⟨63, lastPt⟩) a * main_v0_2.ty.shape.size a) = fun _ => 0 :=
    funext fun a => by
      match a with
      | ⟨0, _⟩ => show win0_4.index ⟨63, lastPt⟩ 0 * 512 = 0; rw [e0]
      | ⟨1, _⟩ => show win0_4.index ⟨63, lastPt⟩ 1 * 256 = 0; rw [e1]
  rw [congrArg ((dats m 0 c).arrAt 4) Arrays.N_eq_last_succ, (dats m 0 c).arrAt_succ 4 ⟨63, lastPt⟩, if_pos Arrays.flush_last_dw]
  exact (Memref.write_access_unit_zero_univ (Elt F) main_v0_2 hz _ _ _).trans (after0_4 m c ⟨63, lastPt⟩)
theorem final_sse : ((dats m 0 c).arrAt 5 cfg0.N : Vec F S1x1 .f32) = (accAt m c 63 lastPt).2.2 := by
  obtain ⟨e0, e1⟩ := Arrays.idx_sse ⟨63, lastPt⟩
  have hz : (fun a => (win0_5.index ⟨63, lastPt⟩) a * main_v0_3.ty.shape.size a) = fun _ => 0 :=
    funext fun a => by
      match a with
      | ⟨0, _⟩ => show win0_5.index ⟨63, lastPt⟩ 0 * 1 = 0; rw [e0]
      | ⟨1, _⟩ => show win0_5.index ⟨63, lastPt⟩ 1 * 1 = 0; rw [e1]
  rw [congrArg ((dats m 0 c).arrAt 5) Arrays.N_eq_last_succ, (dats m 0 c).arrAt_succ 5 ⟨63, lastPt⟩, if_pos Arrays.flush_last_sse]
  exact (Memref.write_access_unit_zero_univ (Elt F) main_v0_3 hz _ _ _).trans (after0_5 m c ⟨63, lastPt⟩)

end Cert.Proof.KV

end
-- ==== Proof.Spec.lean ====
/-
  The mathematics of one vector-quantizer step, row by row, on the extended reals.

  A row `xr` of 256 entries is compared with each of the 512 code vectors `e k`: the logit of code `k` is minus the
  squared distance `|xr|² + |e k|² - 2 ⟨xr, e k⟩`; the soft assignment is the softmax of the logits, taken stably
  (the row's maximum is subtracted before the exponential); the quantized row is the assignment-weighted sum of the code
  vectors; the row's squared error is the squared distance between the quantized row and the row itself.
  Over all rows, three totals feed the codebook update and the losses: the assignment mass of each code, the
  assignment-weighted sum of the rows for each code, and the total squared error.
-/
import Idealize.ShloMosaic.PureOps.Ideal
import Idealize.ShloMosaic.Lib.ValueIdx

noncomputable section

namespace Cert.Proof.Spec

open Idealize.ShloMosaic

/-- One row of the input: 256 entries. -/
abbrev Row := Fin 256 → EReal
/-- The codebook: 512 code vectors of 256 entries. -/
abbrev Book := Fin 512 → Fin 256 → EReal

/-- The inner product of two rows. -/
def dotRow (u v : Row) : EReal := ∑ d : Fin 256, u d * v d

/-- The logit of code `k` for the row `xr`: minus the squared distance, expanded as `|xr|² + |e k|² - 2 ⟨xr, e k⟩`. -/
def logit (xr : Row) (e : Book) (k : Fin 512) : EReal :=
  -((dotRow xr xr + dotRow (e k) (e k)) - 2 * dotRow xr (e k))

/-- The largest of 512 logits (the fold of `max` from `-∞`). -/
def rowMax (l : Fin 512 → EReal) : EReal := (Finset.univ : Finset (Fin 512)).fold max ⊥ l

/-- The exponential of a logit less the row's maximum. -/
def expRow (l : Fin 512 → EReal) (k : Fin 512) : EReal := Ideal.exp (l k - rowMax l)

/-- The softmax of 512 logits at `k`. -/
def softmax (l : Fin 512 → EReal) (k : Fin 512) : EReal := Ideal.div (expRow l k) (∑ k' : Fin 512, expRow l k')

/-- The soft assignment of the row `xr` to code `k`. -/
def enc (xr : Row) (e : Book) (k : Fin 512) : EReal := softmax (logit xr e) k

/-- The quantized row at entry `j`: the assignment-weighted sum of the code vectors. -/
def quant (xr : Row) (e : Book) (j : Fin 256) : EReal := ∑ k : Fin 512, enc xr e k * e k j

/-- The squared error of the quantized row against the row. -/
def sqErr (xr : Row) (e : Book) : EReal := ∑ j : Fin 256, (quant xr e j - xr j) * (quant xr e j - xr j)

/-- Row `p` of a matrix with 256 columns given at its two-coordinate indices. -/
abbrev rowOf {n : Nat} (x : (⟨2, ![n, 256]⟩ : Shape).Idx → EReal) (p : Fin n) : Row := fun d => x (ValueIdx.ix2 p d)

/-- The codebook of a 512 × 256 matrix given at its two-coordinate indices. -/
abbrev bookOf (ev : (⟨2, ![512, 256]⟩ : Shape).Idx → EReal) : Book := fun k d => ev (ValueIdx.ix2 k d)

end Cert.Proof.Spec

end
-- ==== Proof.KV.Blocks.lean ====
/-
  One block of 1024 rows, read entry by entry on the extended reals: the body's values are the row mathematics of
  `Spec` applied to each row of the block.
-/
import proofs.«178691_j45775761441268_1_alg».proof.Proof.Spec
import proofs.«178691_j45775761441268_1_alg».proof.Proof.Gen.KernelIdeal.Skeleton
import Idealize.ShloMosaic.PureOps.Ideal.Laws
import Idealize.ShloMosaic.Lib.ValueIdx
import Idealize.ShloMosaic.Lib.Pipeline.Value
import Idealize.ShloMosaic.Lib.ValueLayout

noncomputable section

namespace Cert.Proof.KV

open Cert.KernelIdeal Cert.KernelIdeal.Gen
open Idealize.ShloMosaic Idealize.ShloMosaic.ValueIdx
open Cert.Proof.Spec

namespace Blocks

/-! ## Literals -/

/-- The pattern `0x40000000` is the real `2`. -/
theorem ofBits_two_f32 : Ideal.ofBits .f32 0x40000000#32 = 2 := by
  have h : Ideal.ofBits .f32 0x40000000#32 = ((2 : ℝ) : EReal) := by
    simp [Ideal.ofBits, Ideal.ieee, -EReal.coe_mul]; norm_num
  rw [h]; rfl

/-- The pattern `0xFF800000` is `-∞`. -/
theorem ofBits_negInf_f32 : Ideal.ofBits .f32 0xFF800000#32 = ⊥ := by
  simp [Ideal.ofBits, Ideal.ieee]

/-! ## Layout operations at coordinates -/

section Layout
variable {α : Type}

/-- A vector of length `a` viewed as a column `[a, 1]` reads, at `(p, u)`, the vector at `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` broadcast along the lanes to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A value per row of the block, kept as a column and broadcast along the 512 lanes, reads at `(p, k)` row `p`'s value. -/
theorem perRow_apply (r : (⟨1, ![1024]⟩ : Shape).Idx → α) (p : Fin 1024) (k : Fin 512) :
    broadcastTo S1024x512 (shapeCast S1024x1 r shapeCasts_S1024_S1024x1) broadcasts_S1024x1_S1024x512 (ix2 p k) = r (ix1 p) :=
  (broadcastTo_a1_ab_apply _ _ p k).trans (shapeCast_a_a1_apply _ _ p 0)

/-- A value per code, kept as a column, turned into a row and broadcast down the 1024 rows, reads at `(p, k)` code `k`'s value. -/
theorem perCode_apply (r : (⟨1, ![512]⟩ : Shape).Idx → α) (p : Fin 1024) (k : Fin 512) :
    broadcastTo S1024x512 (transpose S1x512 [1, 0] (shapeCast S512x1 r shapeCasts_S512_S512x1) transposes_S512x1_p1_0_S1x512)
      broadcasts_S1x512_S1024x512 (ix2 p k) = r (ix1 k) :=
  (broadcastTo_1b_ab_apply _ _ p k).trans ((transpose_ix2_apply _ _ (0 : Fin 1) k).trans (shapeCast_a_a1_apply _ _ k 0))

end Layout

/-! ## Reductions along the lanes -/

/-- The sum along the lanes of an `[a, b]` vector at row `p`. -/
theorem sumLanes_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (p : Fin a) :
    multiReduction (F := Ideal) .add [1] ⟨1, ![a]⟩ v 0x00000000#32 h hφ hacc (ix1 p) = ∑ d : Fin b, v (ix2 p d) := by
  refine (Ideal.multiReduction_add_single v _ h hφ hacc (ix1 p)).trans ?_
  refine Finset.sum_congr rfl fun d _ => congrArg v (funext fun ax => Fin.ext ?_)
  match ax with
  | ⟨0, _⟩ => rfl
  | ⟨1, _⟩ => rfl

/-- The maximum along the lanes of an `[a, b]` vector at row `p`, from `-∞`. -/
theorem maxLanes_apply {a b : ℕ} (v : FVec Ideal ⟨2, ![a, b]⟩ .f32) (h : (⟨2, ![a, b]⟩ : Shape).Reduces [1] ⟨1, ![a]⟩)
    (hφ : FKind.Formats .f32) (hacc : (0xFF800000#32 : BitVec 32) = FKind.maximumf.neutral .f32 hφ) (p : Fin a) :
    multiReduction (F := Ideal) .maximumf [1] ⟨1, ![a]⟩ v 0xFF800000#32 h hφ hacc (ix1 p)
      = (Finset.univ : Finset (Fin b)).fold max ⊥ (fun d => v (ix2 p d)) := by
  refine (Ideal.multiReduction_maximumf_single v _ h hφ hacc (ix1 p)).trans ?_
  have e : (v ∘ h.lift (ix1 p)) = fun d : Fin b => v (ix2 p d) := funext fun d => congrArg v (funext fun ax => Fin.ext (by
    match ax with
    | ⟨0, _⟩ => rfl
    | ⟨1, _⟩ => rfl))
  rw [e]
  exact congrArg (fun z => (Finset.univ : Finset (Fin b)).fold max z (fun d => v (ix2 p d))) ofBits_negInf_f32

/-! ## The two matrix products at coordinates

The operand indices of a product with one contracted axis, axis by axis: the left operand is read at (row, contraction
coordinate), the right at (contraction coordinate, column). -/

theorem lhs_mmLogit_0 (i : S1024x512.Idx) (q : dot_S1024x256_S256x512_S1024x512_1_0_0_1_n_n.contr.Idx) :
    (dot_S1024x256_S256x512_S1024x512_1_0_0_1_n_n.lhsIdx i q 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem lhs_mmLogit_1 (i : S1024x512.Idx) (q : dot_S1024x256_S256x512_S1024x512_1_0_0_1_n_n.contr.Idx) :
    (dot_S1024x256_S256x512_S1024x512_1_0_0_1_n_n.lhsIdx i q 1).val = (q ⟨0, by decide⟩).val :=
  dot_S1024x256_S256x512_S1024x512_1_0_0_1_n_n.lhsIdx_val_of_single rfl i q
theorem rhs_mmLogit_0 (i : S1024x512.Idx) (q : dot_S1024x256_S256x512_S1024x512_1_0_0_1_n_n.contr.Idx) :
    (dot_S1024x256_S256x512_S1024x512_1_0_0_1_n_n.rhsIdx i q 0).val = (q ⟨0, by decide⟩).val :=
  dot_S1024x256_S256x512_S1024x512_1_0_0_1_n_n.rhsIdx_val_of_single rfl i q
theorem rhs_mmLogit_1 (i : S1024x512.Idx) (q : dot_S1024x256_S256x512_S1024x512_1_0_0_1_n_n.contr.Idx) :
    (dot_S1024x256_S256x512_S1024x512_1_0_0_1_n_n.rhsIdx i q 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- The product of a `[1024, 256]` block with a `[256, 512]` matrix into a zero accumulator, at `(p, k)`. -/
theorem matmulLogit_apply (a : FVec Ideal S1024x256 .bf16) (b : FVec Ideal S256x512 .bf16) (p : Fin 1024) (k : Fin 512) :
    matmul (F := Ideal) dot_S1024x256_S256x512_S1024x512_1_0_0_1_n_n none a b (constant (F := Ideal) S1024x512 .f32 0x00000000#32) (ix2 p k)
      = ∑ d : Fin 256, a (ix2 p d) * b (ix2 d k) := by
  simp only [matmul]
  rw [Ideal.matmul_constant_zero_apply, ← Equiv.sum_comp (ValueIdx.contrEquiv1 dot_S1024x256_S256x512_S1024x512_1_0_0_1_n_n 256 rfl rfl).symm]
  refine Finset.sum_congr rfl fun d _ => ?_
  have hk := ValueIdx.contrEquiv1_symm_val dot_S1024x256_S256x512_S1024x512_1_0_0_1_n_n 256 rfl rfl d
  have el : dot_S1024x256_S256x512_S1024x512_1_0_0_1_n_n.lhsIdx (ix2 p k) ((ValueIdx.contrEquiv1 dot_S1024x256_S256x512_S1024x512_1_0_0_1_n_n 256 rfl rfl).symm d) = ix2 p d := funext fun ax => Fin.ext (by
    match ax with
    | ⟨0, _⟩ => exact lhs_mmLogit_0 _ _
    | ⟨1, _⟩ => exact (lhs_mmLogit_1 _ _).trans hk)
  have er : dot_S1024x256_S256x512_S1024x512_1_0_0_1_n_n.rhsIdx (ix2 p k) ((ValueIdx.contrEquiv1 dot_S1024x256_S256x512_S1024x512_1_0_0_1_n_n 256 rfl rfl).symm d) = ix2 d k := funext fun ax => Fin.ext (by
    match ax with
    | ⟨0, _⟩ => exact (rhs_mmLogit_0 _ _).trans hk
    | ⟨1, _⟩ => exact rhs_mmLogit_1 _ _)
  rw [el, er]

theorem lhs_mmQuant_0 (i : S1024x256.Idx) (q : dot_S1024x512_S512x256_S1024x256_1_0_0_1_n_n.contr.Idx) :
    (dot_S1024x512_S512x256_S1024x256_1_0_0_1_n_n.lhsIdx i q 0).val = (i 0).val := by
  unfold DotDims.lhsIdx
  rw [dif_neg (show ¬(0 : Fin S1024x512.rank) ∈ dot_S1024x512_S512x256_S1024x256_1_0_0_1_n_n.lhsBatch by decide), dif_pos (show (0 : Fin S1024x512.rank) ∈ dot_S1024x512_S512x256_S1024x256_1_0_0_1_n_n.lhsNonContracting by decide)]
  rfl
theorem lhs_mmQuant_1 (i : S1024x256.Idx) (q : dot_S1024x512_S512x256_S1024x256_1_0_0_1_n_n.contr.Idx) :
    (dot_S1024x512_S512x256_S1024x256_1_0_0_1_n_n.lhsIdx i q 1).val = (q ⟨0, by decide⟩).val :=
  dot_S1024x512_S512x256_S1024x256_1_0_0_1_n_n.lhsIdx_val_of_single rfl i q
theorem rhs_mmQuant_0 (i : S1024x256.Idx) (q : dot_S1024x512_S512x256_S1024x256_1_0_0_1_n_n.contr.Idx) :
    (dot_S1024x512_S512x256_S1024x256_1_0_0_1_n_n.rhsIdx i q 0).val = (q ⟨0, by decide⟩).val :=
  dot_S1024x512_S512x256_S1024x256_1_0_0_1_n_n.rhsIdx_val_of_single rfl i q
theorem rhs_mmQuant_1 (i : S1024x256.Idx) (q : dot_S1024x512_S512x256_S1024x256_1_0_0_1_n_n.contr.Idx) :
    (dot_S1024x512_S512x256_S1024x256_1_0_0_1_n_n.rhsIdx i q 1).val = (i 1).val := by
  unfold DotDims.rhsIdx
  rw [dif_neg (show ¬(1 : Fin S512x256.rank) ∈ dot_S1024x512_S512x256_S1024x256_1_0_0_1_n_n.rhsBatch by decide), dif_pos (show (1 : Fin S512x256.rank) ∈ dot_S1024x512_S512x256_S1024x256_1_0_0_1_n_n.rhsNonContracting by decide)]
  rfl

/-- The product of a `[1024, 512]` block with a `[512, 256]` matrix into a zero accumulator, at `(p, j)`. -/
theorem matmulQuant_apply (a : FVec Ideal S1024x512 .bf16) (b : FVec Ideal S512x256 .bf16) (p : Fin 1024) (j : Fin 256) :
    matmul (F := Ideal) dot_S1024x512_S512x256_S1024x256_1_0_0_1_n_n none a b (constant (F := Ideal) S1024x256 .f32 0x00000000#32) (ix2 p j)
      = ∑ k : Fin 512, a (ix2 p k) * b (ix2 k j) := by
  simp only [matmul]
  rw [Ideal.matmul_constant_zero_apply, ← Equiv.sum_comp (ValueIdx.contrEquiv1 dot_S1024x512_S512x256_S1024x256_1_0_0_1_n_n 512 rfl rfl).symm]
  refine Finset.sum_congr rfl fun d _ => ?_
  have hk := ValueIdx.contrEquiv1_symm_val dot_S1024x512_S512x256_S1024x256_1_0_0_1_n_n 512 rfl rfl d
  have el : dot_S1024x512_S512x256_S1024x256_1_0_0_1_n_n.lhsIdx (ix2 p j) ((ValueIdx.contrEquiv1 dot_S1024x512_S512x256_S1024x256_1_0_0_1_n_n 512 rfl rfl).symm d) = ix2 p d := funext fun ax => Fin.ext (by
    match ax with
    | ⟨0, _⟩ => exact lhs_mmQuant_0 _ _
    | ⟨1, _⟩ => exact (lhs_mmQuant_1 _ _).trans hk)
  have er : dot_S1024x512_S512x256_S1024x256_1_0_0_1_n_n.rhsIdx (ix2 p j) ((ValueIdx.contrEquiv1 dot_S1024x512_S512x256_S1024x256_1_0_0_1_n_n 512 rfl rfl).symm d) = ix2 d j := funext fun ax => Fin.ext (by
    match ax with
    | ⟨0, _⟩ => exact (rhs_mmQuant_0 _ _).trans hk
    | ⟨1, _⟩ => exact rhs_mmQuant_1 _ _)
  rw [el, er]

/-! ## The block's values, stage by stage -/

/-- Each row's squared norm, along its 512 lanes. -/
def sqRows (v3 : Vec Ideal S1024x256 .f32) : FVec Ideal S1024x512 .f32 :=
  have v7 : FVec Ideal S1024x256 .f32 := mulf v3 v3
  have v8 : FVec Ideal S1024 .f32 := multiReduction .add [1] S1024 v7 0x00000000#32 reduces_S1024x256_S1024 (.inl rfl) rfl
  have v9 : FVec Ideal S1024x1 .f32 := shapeCast S1024x1 v8 shapeCasts_S1024_S1024x1
  broadcastTo S1024x512 v9 broadcasts_S1024x1_S1024x512

/-- Each code's squared norm, down the 1024 rows. -/
def sqCodes (v4 : Vec Ideal S512x256 .f32) : FVec Ideal S1024x512 .f32 :=
  have v10 : FVec Ideal S512x256 .f32 := mulf v4 v4
  have v11 : FVec Ideal S512 .f32 := multiReduction .add [1] S512 v10 0x00000000#32 reduces_S512x256_S512 (.inl rfl) rfl
  have v12 : FVec Ideal S512x1 .f32 := shapeCast S512x1 v11 shapeCasts_S512_S512x1
  have v13 : FVec Ideal S1x512 .f32 := transpose S1x512 [1, 0] v12 transposes_S512x1_p1_0_S1x512
  broadcastTo S1024x512 v13 broadcasts_S1x512_S1024x512

/-- The inner products of the rows with the codes. -/
def cross (v3 : Vec Ideal S1024x256 .f32) (v4 : Vec Ideal S512x256 .f32) : FVec Ideal S1024x512 .f32 :=
  have v14 : FVec Ideal S256x512 .bf16 := transpose S256x512 [1, 0] (k0_pay8 v4) transposes_S512x256_p1_0_S256x512
  have cst_5 : FVec Ideal S1024x512 .f32 := constant S1024x512 .f32 0x00000000#32
  matmul dot_S1024x256_S256x512_S1024x512_1_0_0_1_n_n none (k0_pay7 v3) v14 cst_5

/-- The logits of the block: zero less the expanded squared distances. -/
def blkLogit (v3 : Vec Ideal S1024x256 .f32) (v4 : Vec Ideal S512x256 .f32) : FVec Ideal S1024x512 .f32 :=
  have v18 : FVec Ideal S1024x512 .f32 := addf (sqRows v3) (sqCodes v4)
  have cst_6 : Ideal .f32 := Scalar.ofBits .f32 0x40000000#32
  have v19 : FVec Ideal S1024x512 .f32 := broadcast S1024x512 cst_6
  have v20 : FVec Ideal S1024x512 .f32 := mulf v19 (cross v3 v4)
  have v21 : FVec Ideal S1024x512 .f32 := subf v18 v20
  have cst_7 : Ideal .f32 := Scalar.ofBits .f32 0x00000000#32
  have v22 : FVec Ideal S1024x512 .f32 := broadcast S1024x512 cst_7
  subf v22 v21

/-- Each row's maximum, along its 512 lanes. -/
def rowMaxes (v23 : FVec Ideal S1024x512 .f32) : FVec Ideal S1024x512 .f32 :=
  have v24 : FVec Ideal S1024 .f32 := multiReduction .maximumf [1] S1024 v23 0xFF800000#32 reduces_S1024x512_S1024 (.inl rfl) rfl
  have v25 : FVec Ideal S1024x1 .f32 := shapeCast S1024x1 v24 shapeCasts_S1024_S1024x1
  broadcastTo S1024x512 v25 broadcasts_S1024x1_S1024x512

/-- Each row's sum, along its 512 lanes. -/
def rowSums (v28 : FVec Ideal S1024x512 .f32) : FVec Ideal S1024x512 .f32 :=
  have v29 : FVec Ideal S1024 .f32 := multiReduction .add [1] S1024 v28 0x00000000#32 reduces_S1024x512_S1024 (.inl rfl) rfl
  have v30 : FVec Ideal S1024x1 .f32 := shapeCast S1024x1 v29 shapeCasts_S1024_S1024x1
  broadcastTo S1024x512 v30 broadcasts_S1024x1_S1024x512

/-- The exponentials of a block of logits less each row's maximum. -/
def blkExp (v23 : FVec Ideal S1024x512 .f32) : FVec Ideal S1024x512 .f32 := exp (subf v23 (rowMaxes v23))

/-- A block of exponentials, each row divided by its sum. -/
def blkNorm (v28 : FVec Ideal S1024x512 .f32) : FVec Ideal S1024x512 .f32 := divf v28 (rowSums v28)

/-- The body's soft assignments are these stages in turn. -/
theorem pay9_eq (v3 : Vec Ideal S1024x256 .f32) (v4 : Vec Ideal S512x256 .f32) :
    k0_pay9 (F := Ideal) v3 v4 = blkNorm (blkExp (blkLogit v3 v4)) := rfl

section Stages
variable (x : Vec Ideal S1024x256 .f32) (ev : Vec Ideal S512x256 .f32)

theorem sqRows_apply (p : Fin 1024) (k : Fin 512) : sqRows x (ix2 p k) = dotRow (rowOf x p) (rowOf x p) :=
  (perRow_apply _ p k).trans (sumLanes_apply (mulf x x) _ _ _ p)

theorem sqCodes_apply (p : Fin 1024) (k : Fin 512) : sqCodes ev (ix2 p k) = dotRow (bookOf ev k) (bookOf ev k) :=
  (perCode_apply _ p k).trans (sumLanes_apply (mulf ev ev) _ _ _ k)

theorem cross_apply (p : Fin 1024) (k : Fin 512) : cross x ev (ix2 p k) = dotRow (rowOf x p) (bookOf ev k) := by
  refine (matmulLogit_apply _ _ p k).trans ?_
  refine Finset.sum_congr rfl fun d _ => ?_
  rw [transpose_ix2_apply]
  rfl

theorem blkLogit_apply (p : Fin 1024) (k : Fin 512) : blkLogit x ev (ix2 p k) = logit (rowOf x p) (bookOf ev) k := by
  show Ideal.ofBits .f32 0x00000000#32
      - ((sqRows x (ix2 p k) + sqCodes ev (ix2 p k)) - Ideal.ofBits .f32 0x40000000#32 * cross x ev (ix2 p k)) = _
  rw [sqRows_apply, sqCodes_apply, cross_apply, Ideal.ofBits_zero_f32, ofBits_two_f32, zero_sub]
  rfl

theorem rowMaxes_apply (l : FVec Ideal S1024x512 .f32) (p : Fin 1024) (k : Fin 512) :
    rowMaxes l (ix2 p k) = rowMax (fun k' => l (ix2 p k')) :=
  (perRow_apply _ p k).trans (maxLanes_apply l _ _ _ p)

theorem rowSums_apply (e : FVec Ideal S1024x512 .f32) (p : Fin 1024) (k : Fin 512) :
    rowSums e (ix2 p k) = ∑ k' : Fin 512, e (ix2 p k') :=
  (perRow_apply _ p k).trans (sumLanes_apply e _ _ _ p)

theorem blkExp_apply (l : FVec Ideal S1024x512 .f32) (p : Fin 1024) (k : Fin 512) :
    blkExp l (ix2 p k) = expRow (fun k' => l (ix2 p k')) k := by
  show Ideal.exp (l (ix2 p k) - rowMaxes l (ix2 p k)) = _
  rw [rowMaxes_apply]
  rfl

theorem blkNorm_apply (e : FVec Ideal S1024x512 .f32) (p : Fin 1024) (k : Fin 512) :
    blkNorm e (ix2 p k) = Ideal.div (e (ix2 p k)) (∑ k' : Fin 512, e (ix2 p k')) := by
  show Ideal.div (e (ix2 p k)) (rowSums e (ix2 p k)) = _
  rw [rowSums_apply]

end Stages

end Blocks

open Blocks

variable (x : Vec Ideal S1024x256 .f32) (ev : Vec Ideal S512x256 .f32)

/-- The block's soft assignments are the softmax of each row's logits. -/
theorem enc_blk (p : Fin 1024) (k : Fin 512) :
    k0_pay9 (F := Ideal) x ev (ix2 p k) = enc (rowOf x p) (bookOf ev) k := by
  rw [pay9_eq, blkNorm_apply]
  simp only [blkExp_apply, blkLogit_apply]
  rfl

/-- The block's quantized rows. -/
theorem q_blk (p : Fin 1024) (j : Fin 256) :
    k0_pay11 (F := Ideal) x ev (ix2 p j) = quant (rowOf x p) (bookOf ev) j := by
  refine (matmulQuant_apply (k0_pay10 (F := Ideal) x ev) (k0_pay8 (F := Ideal) ev) p j).trans ?_
  refine Finset.sum_congr rfl fun k _ => ?_
  show k0_pay9 (F := Ideal) x ev (ix2 p k) * ev (ix2 k j) = _
  rw [enc_blk]

/-- The totals start from zero. -/
theorem pay4_zero (i : S1x512.Idx) : k0_pay4 (F := Ideal) i = 0 := Ideal.ofBits_zero_f32
theorem pay5_zero (i : S512x256.Idx) : k0_pay5 (F := Ideal) i = 0 := Ideal.ofBits_zero_f32
theorem pay6_zero (i : S1x1.Idx) : k0_pay6 (F := Ideal) i = 0 := Ideal.ofBits_zero_f32

end Cert.Proof.KV

end
-- ==== Proof.KV.Steps.lean ====
/-
  What one block of 1024 rows adds to each of the three running totals, on the extended reals.
-/
import proofs.«178691_j45775761441268_1_alg».proof.Proof.KV.Blocks

noncomputable section

namespace Cert.Proof.KV

open Cert.KernelIdeal Cert.KernelIdeal.Gen
open Idealize.ShloMosaic Idealize.ShloMosaic.ValueIdx
open Cert.Proof.Spec

variable (x : Vec Ideal S1024x256 .f32) (ev : Vec Ideal S512x256 .f32)

namespace Steps

/-! ## The assignment mass: a column sum -/

/-- A `[1024, 512]` matrix summed over its rows reads, at column `k`, the sum over the rows `p` of its entries
    `(p, k)`. -/
theorem colSum_apply (v : FVec Ideal S1024x512 .f32) (hφ : FKind.Formats .f32)
    (hacc : (0x00000000#32 : BitVec 32) = FKind.add.neutral .f32 hφ) (k : Fin 512) :
    multiReduction (F := Ideal) .add [0] S512 v 0x00000000#32 reduces_S1024x512_S512 hφ hacc (ix1 k)
      = ∑ p : Fin 1024, v (ix2 p k) := by
  refine (Ideal.multiReduction_add_single v 0x00000000#32 reduces_S1024x512_S512 hφ hacc (ix1 k)).trans ?_
  refine Finset.sum_congr rfl fun p _ => congrArg v ?_
  funext a
  match a with
  | ⟨0, _⟩ => rfl
  | ⟨1, _⟩ => rfl

/-- The first total's payload at column `k`: the previous total plus the column sum of the matrix it is given. -/
theorem pay1_apply (v : FVec Ideal S1024x512 .f32) (prev : Vec Ideal S1x512 .f32) (k : Fin 512) :
    k0_pay1 (F := Ideal) v prev (ix2 (0 : Fin 1) k)
      = prev (ix2 (0 : Fin 1) k) + ∑ p : Fin 1024, v (ix2 p k) := by
  unfold k0_pay1
  refine congrArg₂ (· + ·) ?_ ?_
  · exact congrFun (shapeCast_self prev _) _
  · refine (shapeCast_a_1a_apply _ shapeCasts_S512_S1x512 (0 : Fin 1) k).trans ?_
    exact colSum_apply v _ _ k

/-! ## The weighted row sum: a transposed matrix product -/

/-- The product's left operand index keeps the output's row … -/
theorem lhs_dw_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
/-- … and takes the contraction coordinate as its column; -/
theorem lhs_dw_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
/-- the right operand index takes the contraction coordinate as its row … -/
theorem rhs_dw_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
/-- … and keeps the output's column. -/
theorem rhs_dw_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

/-- The second total's payload at `(k, j)`: the previous total plus the sum over the rows `p` of the products of
    the two matrices' entries `(p, k)` and `(p, j)`. -/
theorem pay2_apply (v5 : FVec Ideal S1024x256 .bf16) (v33 : FVec Ideal S1024x512 .bf16) (prev : Vec Ideal S512x256 .f32)
    (k : Fin 512) (j : Fin 256) :
    k0_pay2 (F := Ideal) v5 v33 prev (ix2 k j)
      = prev (ix2 k j) + ∑ p : Fin 1024, v33 (ix2 p k) * v5 (ix2 p j) := by
  unfold k0_pay2
  refine congrArg₂ (· + ·) (congrFun (shapeCast_self prev _) _) ?_
  have ht : ∀ p : Fin 1024, transpose S512x1024 [1, 0] v33 transposes_S1024x512_p1_0_S512x1024 (ix2 k p) = v33 (ix2 p k) :=
    fun p => transpose_ix2_apply v33 _ k p
  generalize transpose S512x1024 [1, 0] v33 transposes_S1024x512_p1_0_S512x1024 = y at ht ⊢
  simp only [matmul]
  rw [Ideal.matmul_constant_zero_apply, ← Equiv.sum_comp (contrEquiv1 dot_S512x1024_S1024x256_S512x256_1_0_0_1_n_n 1024 rfl rfl).symm]
  refine Finset.sum_congr rfl fun p _ => ?_
  have hk := contrEquiv1_symm_val dot_S512x1024_S1024x256_S512x256_1_0_0_1_n_n 1024 rfl rfl p
  have el : dot_S512x1024_S1024x256_S512x256_1_0_0_1_n_n.lhsIdx (ix2 k j) ((contrEquiv1 dot_S512x1024_S1024x256_S512x256_1_0_0_1_n_n 1024 rfl rfl).symm p) = ix2 k p := funext fun a => Fin.ext (by
    match a with
    | ⟨0, _⟩ => exact lhs_dw_0 _ _
    | ⟨1, _⟩ => exact (lhs_dw_1 _ _).trans hk)
  have er : dot_S512x1024_S1024x256_S512x256_1_0_0_1_n_n.rhsIdx (ix2 k j) ((contrEquiv1 dot_S512x1024_S1024x256_S512x256_1_0_0_1_n_n 1024 rfl rfl).symm p) = ix2 p j := funext fun a => Fin.ext (by
    match a with
    | ⟨0, _⟩ => exact (rhs_dw_0 _ _).trans hk
    | ⟨1, _⟩ => exact rhs_dw_1 _ _)
  rw [el, er, ht]

/-! ## The squared error: a total sum -/

/-- An index of a `[1, 1024, 256]` array is a row and a column. -/
def idxEquivRows : S1x1024x256.Idx ≃ Fin 1024 × Fin 256 where
  toFun i := (i 1, i 2)
  invFun q := ix3 (0 : Fin 1) q.1 q.2
  left_inv i := by
    funext a
    match a with
    | ⟨0, h⟩ => exact Fin.ext (by have h1 : (i ⟨0, h⟩).val < 1 := (i ⟨0, h⟩).isLt; show 0 = (i ⟨0, h⟩).val; omega)
    | ⟨1, _⟩ => rfl
    | ⟨2, _⟩ => rfl
  right_inv _ := rfl

/-- So a sum over such an array is the double sum over rows and columns. -/
theorem sum_rows {M : Type*} [AddCommMonoid M] (f : S1x1024x256.Idx → M) :
    ∑ i, f i = ∑ p : Fin 1024, ∑ j : Fin 256, f (ix3 (0 : Fin 1) p j) := by
  rw [← Equiv.sum_comp idxEquivRows.symm f, Fintype.sum_prod_type]
  rfl

/-- The third total's payload at its one index: the previous total plus the one entry of the vector it is given. -/
theorem pay3_apply (v : FVec Ideal S1 .f32) (prev : Vec Ideal S1x1 .f32) :
    k0_pay3 (F := Ideal) v prev (ix2 (0 : Fin 1) (0 : Fin 1))
      = prev (ix2 (0 : Fin 1) (0 : Fin 1)) + v (ix1 (0 : Fin 1)) := by
  unfold k0_pay3
  refine congrArg₂ (· + ·) (congrFun (shapeCast_self prev _) _) ?_
  show extractAt ![0, 0, 0] (shapeCast S1x1x1 v shapeCasts_S1_S1x1x1) inpos_S1x1x1_p0_0_0 = _
  unfold extractAt
  exact shapeCast_apply v _ _ (ix1 (0 : Fin 1)) (by rw [Shape.rowMajor_val_three, Shape.rowMajor_val_one]; rfl)

/-- The block's squared differences, summed over the whole block, are the rows' squared errors summed. -/
theorem pay12_apply :
    k0_pay12 (F := Ideal) x ev (ix1 (0 : Fin 1)) = ∑ p : Fin 1024, sqErr (rowOf x p) (bookOf ev) := by
  unfold k0_pay12
  refine (Ideal.multiReduction_add_total _ 0x00000000#32 reduces_S1x1024x256_S1
    (fun b => match b with | ⟨0, _⟩ => rfl) _ _ (ix1 (0 : Fin 1))).trans ?_
  rw [sum_rows]
  refine Finset.sum_congr rfl fun p _ => Finset.sum_congr rfl fun j _ => ?_
  rw [shapeCast_ab_1ab_apply, mulf_apply, subf_apply, q_blk]

end Steps

open Steps

/-- A block adds, for each code, the assignment mass of its 1024 rows. -/
theorem es_step (prev : Vec Ideal S1x512 .f32) (k : Fin 512) :
    k0_pay1 (F := Ideal) (k0_pay9 x ev) prev (ix2 (0 : Fin 1) k)
      = prev (ix2 (0 : Fin 1) k) + ∑ p : Fin 1024, enc (rowOf x p) (bookOf ev) k := by
  rw [pay1_apply]
  exact congrArg _ (Finset.sum_congr rfl fun p _ => enc_blk x ev p k)

/-- A block adds, for each code, the assignment-weighted sum of its 1024 rows. -/
theorem dw_step (prev : Vec Ideal S512x256 .f32) (k : Fin 512) (j : Fin 256) :
    k0_pay2 (F := Ideal) (k0_pay7 x) (k0_pay10 x ev) prev (ix2 k j)
      = prev (ix2 k j) + ∑ p : Fin 1024, enc (rowOf x p) (bookOf ev) k * x (ix2 p j) := by
  rw [pay2_apply]
  refine congrArg _ (Finset.sum_congr rfl fun p _ => ?_)
  show k0_pay9 (F := Ideal) x ev (ix2 p k) * x (ix2 p j) = _
  rw [enc_blk]

/-- A block adds the squared error of its 1024 rows. -/
theorem sse_step (prev : Vec Ideal S1x1 .f32) :
    k0_pay3 (F := Ideal) (k0_pay12 x ev) prev (ix2 (0 : Fin 1) (0 : Fin 1))
      = prev (ix2 (0 : Fin 1) (0 : Fin 1)) + ∑ p : Fin 1024, sqErr (rowOf x p) (bookOf ev) := by
  rw [pay3_apply, pay12_apply]

end Cert.Proof.KV

end
-- ==== Proof.KV.Totals.lean ====
/-
  The region's four arrays after the run as the row mathematics of `Spec` over all 65536 rows: the totals are built up
  block by block (64 blocks of 1024 rows), and a sum over blocks of sums over a block's rows is the sum over all rows.
-/
import proofs.«178691_j45775761441268_1_alg».proof.Proof.KV.Arrays
import proofs.«178691_j45775761441268_1_alg».proof.Proof.KV.Steps
import Mathlib.Data.Fintype.BigOperators
import Mathlib.Algebra.BigOperators.Group.Finset.Basic

noncomputable section

namespace Cert.Proof.KV

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Proof.KI
open Cert.Proof.Spec

variable (m : (ℓ : Loc nD τ sig) → Buf (Elt Ideal) ℓ) (c : Dev nD)

/-- A row is row `r mod 1024` of block `r / 1024`. -/
theorem rowIx_blk (r : Fin 65536) : rowIx (blkOf r) (inBlk r) = r :=
  Fin.ext (Nat.div_add_mod r.val 1024)

/-- Row `p` of the block at point `t` is row `1024 t + p` of the first argument. -/
theorem rowOf_iblk0 (t : Fin cfg0.N) (p : Fin 1024) :
    rowOf (iblk m c 0 t : Vec Ideal S1024x256 .f32) p = rowOf (X0 m c) (rowIx t p) := by
  funext d
  exact iblk0_apply m c t p d

/-- A function of the rows, continued by zero past the last row. -/
def ext0 (g : Fin 65536 → EReal) (i : ℕ) : EReal := if h : i < 65536 then g ⟨i, h⟩ else 0

/-- The sum over a block's rows, as a sum over a stretch of 1024 row numbers. -/
theorem blk_sum (g : Fin 65536 → EReal) (t : Fin cfg0.N) :
    ∑ p : Fin 1024, g (rowIx t p) = ∑ x ∈ Finset.range 1024, ext0 g (1024 * t.val + x) := by
  rw [← Fin.sum_univ_eq_sum_range (fun x => ext0 g (1024 * t.val + x)) 1024]
  refine Finset.sum_congr rfl (fun p _ => ?_)
  show g (rowIx t p) = ext0 g (1024 * t.val + p.val)
  unfold ext0
  rw [dif_pos (show 1024 * t.val + p.val < 65536 from (rowIx t p).isLt)]
  rfl

/-- A total that starts at the first block's sum and grows by each later block's sum is, after the last of the 64
    blocks, the sum over all 65536 rows. -/
theorem sum_blocks (g : Fin 65536 → EReal) (a : (n : ℕ) → n < cfg0.N → EReal)
    (h0 : ∀ hn : 0 < cfg0.N, a 0 hn = ∑ p : Fin 1024, g (rowIx ⟨0, hn⟩ p))
    (hs : ∀ (n : ℕ) (hn : n + 1 < cfg0.N),
      a (n + 1) hn = a n (Nat.lt_of_succ_lt hn) + ∑ p : Fin 1024, g (rowIx ⟨n + 1, hn⟩ p)) :
    a 63 lastPt = ∑ r : Fin 65536, g r := by
  have inv : ∀ (n : ℕ) (hn : n < cfg0.N), a n hn = ∑ i ∈ Finset.range (1024 * (n + 1)), ext0 g i := by
    intro n
    induction n with
    | zero =>
      intro hn
      rw [h0 hn, blk_sum]
      simp
    | succ n ih =>
      intro hn
      rw [hs n hn, ih, blk_sum, show 1024 * (n + 1 + 1) = 1024 * (n + 1) + 1024 by ring, Finset.sum_range_add]
  rw [inv 63 lastPt, show 1024 * (63 + 1) = 65536 by norm_num, ← Fin.sum_univ_eq_sum_range (ext0 g) 65536]
  refine Finset.sum_congr rfl (fun r _ => ?_)
  unfold ext0
  rw [dif_pos r.isLt]

/-- The first result's array holds the quantized rows. -/
theorem total_q (r : Fin 65536) (j : Fin 256) :
    ((dats m 0 c).arrAt 2 cfg0.N : Vec Ideal S65536x256 .f32) (ix2 r j)
      = quant (rowOf (X0 m c) r) (bookOf (X1 m c)) j := by
  rw [final_q, qBlk, q_blk, iblk1_eq, rowOf_iblk0, rowIx_blk]

/-- The second result's array holds each code's assignment mass over all rows. -/
theorem total_es (k : Fin 512) :
    ((dats m 0 c).arrAt 3 cfg0.N : Vec Ideal S1x512 .f32) (ix2 (0 : Fin 1) k)
      = ∑ r : Fin 65536, enc (rowOf (X0 m c) r) (bookOf (X1 m c)) k := by
  rw [final_es]
  refine sum_blocks (fun r => enc (rowOf (X0 m c) r) (bookOf (X1 m c)) k)
    (fun n hn => (accAt m c n hn).1 (ix2 (0 : Fin 1) k)) ?_ ?_
  · intro hn
    show (accAt m c 0 hn).1 (ix2 (0 : Fin 1) k) = _
    rw [accAt_zero]
    dsimp only
    unfold esStep
    rw [es_step, pay4_zero, zero_add, iblk1_eq]
    refine Finset.sum_congr rfl (fun p _ => ?_)
    rw [rowOf_iblk0]
  · intro n hn
    show (accAt m c (n + 1) hn).1 (ix2 (0 : Fin 1) k) = _
    rw [accAt_succ]
    dsimp only
    unfold esStep
    rw [es_step, iblk1_eq]
    refine congrArg _ (Finset.sum_congr rfl (fun p _ => ?_))
    rw [rowOf_iblk0]

/-- The third result's array holds each code's assignment-weighted sum of rows. -/
theorem total_dw (k : Fin 512) (j : Fin 256) :
    ((dats m 0 c).arrAt 4 cfg0.N : Vec Ideal S512x256 .f32) (ix2 k j)
      = ∑ r : Fin 65536, enc (rowOf (X0 m c) r) (bookOf (X1 m c)) k * X0 m c (ix2 r j) := by
  rw [final_dw]
  refine sum_blocks (fun r => enc (rowOf (X0 m c) r) (bookOf (X1 m c)) k * X0 m c (ix2 r j))
    (fun n hn => (accAt m c n hn).2.1 (ix2 k j)) ?_ ?_
  · intro hn
    show (accAt m c 0 hn).2.1 (ix2 k j) = _
    rw [accAt_zero]
    dsimp only
    unfold dwStep
    rw [dw_step, pay5_zero, zero_add, iblk1_eq]
    refine Finset.sum_congr rfl (fun p _ => ?_)
    rw [rowOf_iblk0, iblk0_apply]
  · intro n hn
    show (accAt m c (n + 1) hn).2.1 (ix2 k j) = _
    rw [accAt_succ]
    dsimp only
    unfold dwStep
    rw [dw_step, iblk1_eq]
    refine congrArg _ (Finset.sum_congr rfl (fun p _ => ?_))
    rw [rowOf_iblk0, iblk0_apply]

/-- The fourth result's array holds the total squared error. -/
theorem total_sse :
    ((dats m 0 c).arrAt 5 cfg0.N : Vec Ideal S1x1 .f32) (ix2 (0 : Fin 1) (0 : Fin 1))
      = ∑ r : Fin 65536, sqErr (rowOf (X0 m c) r) (bookOf (X1 m c)) := by
  rw [final_sse]
  refine sum_blocks (fun r => sqErr (rowOf (X0 m c) r) (bookOf (X1 m c)))
    (fun n hn => (accAt m c n hn).2.2 (ix2 (0 : Fin 1) (0 : Fin 1))) ?_ ?_
  · intro hn
    show (accAt m c 0 hn).2.2 (ix2 (0 : Fin 1) (0 : Fin 1)) = _
    rw [accAt_zero]
    dsimp only
    unfold sseStep
    rw [sse_step, pay6_zero, zero_add, iblk1_eq]
    refine Finset.sum_congr rfl (fun p _ => ?_)
    rw [rowOf_iblk0]
  · intro n hn
    show (accAt m c (n + 1) hn).2.2 (ix2 (0 : Fin 1) (0 : Fin 1)) = _
    rw [accAt_succ]
    dsimp only
    unfold sseStep
    rw [sse_step, iblk1_eq]
    refine congrArg _ (Finset.sum_congr rfl (fun p _ => ?_))
    rw [rowOf_iblk0]

end Cert.Proof.KV

end
-- ==== Proof.KV.TailVal.lean ====
/-
  The host operations after the region compute the loss and the perplexity from the three totals and the last three
  arguments; the reference computes the same two numbers by the same operations from its own three totals. Both are
  stated over ONE pair of functions `tailLoss`, `tailPerp`, so that equal totals give equal results.
-/
import proofs.«178691_j45775761441268_1_alg».proof.Proof.KI.Data
import proofs.«178691_j45775761441268_1_alg».proof.Proof.Gen.ReferenceIdeal.Read
import Idealize.ShloMosaic.Lib.StableHlo.Run
import Idealize.ShloMosaic.Lib.ValueIdx
import Idealize.ShloMosaic.Lib.ValueLayout
import Idealize.ShloMosaic.Lib.Pipeline.Value

noncomputable section

namespace Cert.Proof.KV

open Cert.KernelIdeal Cert.KernelIdeal.Gen
open Idealize.ShloMosaic Idealize.ShloMosaic.TcCoe Idealize.ShloMosaic.ValueIdx
open Idealize.SL Idealize.SL.Sem
open Idealize.ShloMosaic.Pipeline (Dat Cfg Window)
open Cert.Proof.KI

/-- The second result's [1, 512] array as the vector of 512 the host operations read, -/
def esOf (v : Vec Ideal S1x512 .f32) : Vec Ideal S512 .f32 := shapeCast S512 v shapeCasts_S1x512_S512
/-- and the fourth result's [1, 1] array as the scalar they read. -/
def sseOf (v : Vec Ideal S1x1 .f32) : Vec Ideal S_ .f32 := shapeCast S_ v shapeCasts_S1x1_S_

theorem esOf_apply (v : Vec Ideal S1x512 .f32) (k : Fin 512) : esOf v (ix1 k) = v (ix2 (0 : Fin 1) k) :=
  shapeCast_1a_a_apply v shapeCasts_S1x512_S512 k
theorem sseOf_apply (v : Vec Ideal S1x1 .f32) : sseOf v ix0 = v (ix2 (0 : Fin 1) (0 : Fin 1)) := by
  refine shapeCast_apply v shapeCasts_S1x1_S_ ix0 (ix2 (0 : Fin 1) (0 : Fin 1)) ?_
  rw [Shape.rowMajor_val_two]
  have h := (S_.rowMajor ix0).isLt
  have hn : S_.numel = 1 := rfl
  show 0 * 1 + 0 = _
  omega

/-! The pieces the two results are made of. Every constant is a scalar given by its bit pattern. -/

/-- A scalar repeated along a vector of 512. -/
def rep512 (s : Vec Ideal S_ .f32) : Vec Ideal S512 .f32 := broadcastInDim S512 ![] bcast_S_S512 s
/-- A scalar repeated over a 512 × 256 matrix. -/
def repMat (s : Vec Ideal S_ .f32) : Vec Ideal S512x256 .f32 := broadcastInDim S512x256 ![] bcast_S_S512x256 s
/-- The sum of a vector of 512, from zero. -/
def sum512 (v : Vec Ideal S512 .f32) : Vec Ideal S_ .f32 :=
  Host.reduceAdd (F := Ideal) (φ := .f32) v (constant (F := Ideal) S_ .f32 0x00000000#32) reducesTo_S512_S_d0 h_S_
/-- The moving average `0.99 old + 0.01 new` of two vectors of 512. -/
def ema512 (old new : Vec Ideal S512 .f32) : Vec Ideal S512 .f32 :=
  addf (F := Ideal) (φ := .f32) (mulf (F := Ideal) (φ := .f32) (rep512 (constant (F := Ideal) S_ .f32 0x3F7D70A4#32)) old)
    (mulf (F := Ideal) (φ := .f32) (rep512 (constant (F := Ideal) S_ .f32 0x3C23D70A#32)) new)
/-- The same moving average of two 512 × 256 matrices. -/
def emaMat (old new : Vec Ideal S512x256 .f32) : Vec Ideal S512x256 .f32 :=
  addf (F := Ideal) (φ := .f32) (mulf (F := Ideal) (φ := .f32) (repMat (constant (F := Ideal) S_ .f32 0x3F7D70A4#32)) old)
    (mulf (F := Ideal) (φ := .f32) (repMat (constant (F := Ideal) S_ .f32 0x3C23D70A#32)) new)
/-- The entropy `- Σ p log (p + 1e-10)` of a vector of 512. -/
def entropy (p : Vec Ideal S512 .f32) : Vec Ideal S_ .f32 :=
  Host.negf (F := Ideal) (φ := .f32) (sum512 (mulf (F := Ideal) (φ := .f32) p
    (Host.log (F := Ideal) (φ := .f32) (addf (F := Ideal) (φ := .f32) p (rep512 (constant (F := Ideal) S_ .f32 0x2EDBE6FF#32))))))
/-- The average assignment of the 65536 rows to each code. -/
def avgProbs (es : Vec Ideal S512 .f32) : Vec Ideal S512 .f32 :=
  Host.divf (F := Ideal) (φ := .f32) es (rep512 (constant (F := Ideal) S_ .f32 0x47800000#32))
/-- The updated cluster sizes, smoothed: `(n_k + 1e-5) / (Σ n + 512 · 1e-5) · Σ n`. -/
def smoothed (cs : Vec Ideal S512 .f32) : Vec Ideal S512 .f32 :=
  mulf (F := Ideal) (φ := .f32)
    (Host.divf (F := Ideal) (φ := .f32) (addf (F := Ideal) (φ := .f32) cs (rep512 (constant (F := Ideal) S_ .f32 0x3727C5AC#32)))
      (rep512 (addf (F := Ideal) (φ := .f32) (sum512 cs) (constant (F := Ideal) S_ .f32 0x3BA7C5AC#32))))
    (rep512 (sum512 cs))
/-- The updated codebook: the averaged weighted sums, each code's row divided by its smoothed cluster size. -/
def newBook (es : Vec Ideal S512 .f32) (dw : Vec Ideal S512x256 .f32) (a2 : Vec Ideal S512 .f32)
    (a3 : Vec Ideal S512x256 .f32) : Vec Ideal S512x256 .f32 :=
  Host.divf (F := Ideal) (φ := .f32) (emaMat a3 dw)
    (broadcastInDim (α := Elt Ideal .f32) S512x256 ![0, 1] bcast_S512x1_S512x256_0_1
      (broadcastInDim (α := Elt Ideal .f32) S512x1 ![0] bcast_S512_S512x1_0 (smoothed (ema512 a2 es))))
/-- The averaged code usage as a distribution: `u_k / (Σ u + 1e-5)`. -/
def usage (es a4 : Vec Ideal S512 .f32) : Vec Ideal S512 .f32 :=
  Host.divf (F := Ideal) (φ := .f32) (ema512 a4 es)
    (rep512 (addf (F := Ideal) (φ := .f32) (sum512 (ema512 a4 es)) (constant (F := Ideal) S_ .f32 0x3727C5AC#32)))

/-- The loss from the three totals and the last three arguments. -/
def tailLoss (es : Vec Ideal S512 .f32) (dw : Vec Ideal S512x256 .f32) (sse : Vec Ideal S_ .f32)
    (a2 : Vec Ideal S512 .f32) (a3 : Vec Ideal S512x256 .f32) (a4 : Vec Ideal S512 .f32) : Vec Ideal S_ .f32 :=
  addf (F := Ideal) (φ := .f32)
    (addf (F := Ideal) (φ := .f32)
      (addf (F := Ideal) (φ := .f32) (Host.divf (F := Ideal) (φ := .f32) sse (constant (F := Ideal) S_ .f32 0x4B800000#32))
        (mulf (F := Ideal) (φ := .f32) (constant (F := Ideal) S_ .f32 0x3E800000#32)
          (Host.divf (F := Ideal) (φ := .f32) sse (constant (F := Ideal) S_ .f32 0x4B800000#32))))
      (Host.reduceAdd (F := Ideal) (φ := .f32) (mulf (F := Ideal) (φ := .f32) (newBook es dw a2 a3) (newBook es dw a2 a3))
        (constant (F := Ideal) S_ .f32 0x00000000#32) reducesTo_S512x256_S_d0_1 h_S_))
    (mulf (F := Ideal) (φ := .f32) (constant (F := Ideal) S_ .f32 0x3F4CCCCD#32)
      (addf (F := Ideal) (φ := .f32) (entropy (avgProbs es)) (entropy (usage es a4))))
/-- The perplexity from the assignment mass. -/
def tailPerp (es : Vec Ideal S512 .f32) : Vec Ideal S_ .f32 := Host.exp (F := Ideal) (φ := .f32) (entropy (avgProbs es))

variable (m : (ℓ : Loc nD τ sig) → Buf (Elt Ideal) ℓ) (c : Dev nD)

set_option maxHeartbeats 4000000 in
/-- The kernel's loss after the host operations that follow the region. -/
theorem kernel_loss :
    Pipeline.afterTail₀ cfgs (dats m) 0 (V0 m) [hostOps1] c main_v56
      = tailLoss (esOf ((dats m 0 c).arrAt 3 cfg0.N)) ((dats m 0 c).arrAt 4 cfg0.N) (sseOf ((dats m 0 c).arrAt 5 cfg0.N))
          (m ((c : Thread nD τ).loc main_arg2)) (m ((c : Thread nD τ).loc main_arg3)) (m ((c : Thread nD τ).loc main_arg4)) := by
  unfold Pipeline.afterTail₀
  simp only [List.flatten_cons, List.flatten_nil, List.append_nil]
  -- the region's second, third and fourth results are the arrays of windows 3, 4 and 5 as the region leaves them;
  -- the last three arguments are no window's array and hold what they were launched with
  have h3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  have h4 : Pipeline.withArrays (cfgs 0).spec c (V0 m c) (fun w => (dats m 0 c).arrAt w (cfgs 0).N) (Proc.devRef .tc main_v0_2)
      = (dats m 0 c).arrAt 4 cfg0.N := Pipeline.withArrays_arr spec0 launch0.win.arr_inj c _ _ 4
  have h5 : Pipeline.withArrays (cfgs 0).spec c (V0 m c) (fun w => (dats m 0 c).arrAt w (cfgs 0).N) (Proc.devRef .tc main_v0_3)
      = (dats m 0 c).arrAt 5 cfg0.N := Pipeline.withArrays_arr spec0 launch0.win.arr_inj c _ _ 5
  have ha2 : Pipeline.withArrays (cfgs 0).spec c (V0 m c) (fun w => (dats m 0 c).arrAt w (cfgs 0).N) (Proc.devRef .tc main_arg2)
      = m ((c : Thread nD τ).loc main_arg2) := Pipeline.withArrays_of_ne spec0 c _ _ main_arg2 (by decide)
  have ha3 : Pipeline.withArrays (cfgs 0).spec c (V0 m c) (fun w => (dats m 0 c).arrAt w (cfgs 0).N) (Proc.devRef .tc main_arg3)
      = m ((c : Thread nD τ).loc main_arg3) := Pipeline.withArrays_of_ne spec0 c _ _ main_arg3 (by decide)
  have ha4 : Pipeline.withArrays (cfgs 0).spec c (V0 m c) (fun w => (dats m 0 c).arrAt w (cfgs 0).N) (Proc.devRef .tc main_arg4)
      = m ((c : Thread nD τ).loc main_arg4) := Pipeline.withArrays_of_ne spec0 c _ _ main_arg4 (by decide)
  generalize Pipeline.withArrays (cfgs 0).spec c (V0 m c) (fun w => (dats m 0 c).arrAt w (cfgs 0).N) = W at h3 h4 h5 ha2 ha3 ha4 ⊢
  show StableHlo.after hostOps1 W (Proc.devRef .tc main_v56) = _
  after_results_simp
  rw [h3, h4, h5, ha2, ha3, ha4]
  rfl

/-- The kernel's perplexity after the host operations that follow the region. -/
theorem kernel_perp :
    Pipeline.afterTail₀ cfgs (dats m) 0 (V0 m) [hostOps1] c main_v50 = tailPerp (esOf ((dats m 0 c).arrAt 3 cfg0.N)) := by
  unfold Pipeline.afterTail₀
  simp only [List.flatten_cons, List.flatten_nil, List.append_nil]
  have h3 : Pipeline.withArrays (cfgs 0).spec c (V0 m c) (fun w => (dats m 0 c).arrAt w (cfgs 0).N) (Proc.devRef .tc main_v0_1)
      = (dats m 0 c).arrAt 3 cfg0.N := Pipeline.withArrays_arr spec0 launch0.win.arr_inj c _ _ 3
  generalize Pipeline.withArrays (cfgs 0).spec c (V0 m c) (fun w => (dats m 0 c).arrAt w (cfgs 0).N) = W at h3 ⊢
  show StableHlo.after hostOps1 W (Proc.devRef .tc main_v50) = _
  after_results_simp
  rw [h3]
  rfl

section Ref
open Cert.ReferenceIdeal.Read

/-- The reference recomputes the assignment mass for the code usage: the same sum. -/
theorem ref_v55 (x0 : Vec Ideal Cert.ReferenceIdeal.S65536x256 .f32) (x1 : Vec Ideal Cert.ReferenceIdeal.S512x256 .f32) :
    val_main_v55 (F := Ideal) x0 x1 = val_main_v31 (F := Ideal) x0 x1 := by
  unfold val_main_v55 val_main_v31 val_main_cst_15 val_main_cst_7
  rfl
/-- And once more for the average assignment. -/
theorem ref_v69 (x0 : Vec Ideal Cert.ReferenceIdeal.S65536x256 .f32) (x1 : Vec Ideal Cert.ReferenceIdeal.S512x256 .f32) :
    val_main_v69 (F := Ideal) x0 x1 = val_main_v31 (F := Ideal) x0 x1 := by
  unfold val_main_v69 val_main_v31 val_main_cst_22 val_main_cst_7
  rfl
/-- The reference recomputes the squared error: the same sum of the same squares. -/
theorem ref_v65 (x0 : Vec Ideal Cert.ReferenceIdeal.S65536x256 .f32) (x1 : Vec Ideal Cert.ReferenceIdeal.S512x256 .f32) :
    val_main_v65 (F := Ideal) x0 x1 = val_main_v61 (F := Ideal) x0 x1 := by
  unfold val_main_v65 val_main_v61 val_main_v64 val_main_v60 val_main_v63 val_main_v59 val_main_cst_19 val_main_cst_17
  rfl
/-- The reference's loss is the same function of its own totals. -/
theorem ref_loss (x0 : Vec Ideal Cert.ReferenceIdeal.S65536x256 .f32) (x1 : Vec Ideal Cert.ReferenceIdeal.S512x256 .f32)
    (x2 : Vec Ideal Cert.ReferenceIdeal.S512 .f32) (x3 : Vec Ideal Cert.ReferenceIdeal.S512x256 .f32) (x4 : Vec Ideal Cert.ReferenceIdeal.S512 .f32) :
    val_main_v94 (F := Ideal) x0 x1 x2 x3 x4
      = tailLoss (val_main_v31 (F := Ideal) x0 x1) (val_main_v44 (F := Ideal) x0 x1) (val_main_v61 (F := Ideal) x0 x1) x2 x3 x4 := by
  unfold val_main_v94 val_main_v93 val_main_v92 val_main_v91 val_main_v90 val_main_v89 val_main_v87 val_main_v86 val_main_v85
    val_main_v84 val_main_v83 val_main_v82 val_main_v81 val_main_v80 val_main_v79 val_main_v78 val_main_v77 val_main_v76
    val_main_v75 val_main_v74 val_main_v73 val_main_v72 val_main_v71 val_main_v70 val_main_v68 val_main_v67 val_main_v66
    val_main_v62 val_main_v58 val_main_v57 val_main_v56 val_main_v54 val_main_v53 val_main_v52 val_main_v51 val_main_v50
    val_main_v49 val_main_v48 val_main_v47 val_main_v46 val_main_v45 val_main_v42 val_main_v41 val_main_v40 val_main_v39
    val_main_v38 val_main_v37 val_main_v36 val_main_v35 val_main_v34 val_main_v33 val_main_v32 val_main_v30 val_main_v29
    val_main_cst_6 val_main_cst_8 val_main_cst_9 val_main_cst_10 val_main_cst_11 val_main_cst_12 val_main_cst_13
    val_main_cst_14 val_main_cst_16 val_main_cst_18 val_main_cst_20 val_main_cst_21 val_main_cst_23 val_main_cst_24
    val_main_cst_25 val_main_cst_26 val_main_cst_27 val_main_cst_28 val_main_cst_29 val_main_cst_30 val_main_cst_31
  rw [ref_v55, ref_v69, ref_v65]
  rfl

/-- The reference's perplexity is the same function of its own assignment mass. -/
theorem ref_perp (x0 : Vec Ideal Cert.ReferenceIdeal.S65536x256 .f32) (x1 : Vec Ideal Cert.ReferenceIdeal.S512x256 .f32) :
    val_main_v88 (F := Ideal) x0 x1 = tailPerp (val_main_v31 (F := Ideal) x0 x1) := by
  unfold val_main_v88 val_main_v77 val_main_v76 val_main_v75 val_main_v74 val_main_v73 val_main_v72 val_main_v71 val_main_v70
    val_main_cst_23 val_main_cst_24 val_main_cst_25
  rw [ref_v69]
  rfl

end Ref

end Cert.Proof.KV

end
-- ==== Proof.KV.Finite.lean ====
/-
  The precondition says every entry of every float argument is finite: each is a real number.
-/
import proofs.«178691_j45775761441268_1_alg».proof.Defs
import proofs.«178691_j45775761441268_1_alg».proof.Proof.Gen.KernelIdeal
import proofs.«178691_j45775761441268_1_alg».proof.Proof.Gen.Pre_finite_inputs
import Idealize.ShloMosaic.Lib.ReduceAll
import Idealize.ShloMosaic.Lib.ValueIdx

noncomputable section

namespace Cert.Proof.KV

open Idealize.ShloMosaic Idealize.ShloMosaic.TcCoe Idealize.SL.Sem

/-- The scalar shape has one index. -/
instance subsingleton_S_ : Subsingleton Cert.Pre_finite_inputs.S_.Idx := ⟨fun a b => funext fun d => d.elim0⟩

/-- An extended real whose absolute value is below +∞ is a real number: at ⊤ and at ⊥ the absolute value
    max x (-x) is ⊤, and ⊤ < ⊤ is false. -/
theorem real_of_abs_lt_inf (x : Ideal .f32)
    (h : FloatOps.cmpf .olt (FloatOps.hostAbsf x) (FloatOps.ofBits (F := Ideal) .f32 0x7F800000#32) = 1#1) :
    ∃ r : ℝ, x = (r : EReal) := by
  have htop : Ideal.ofBits .f32 0x7F800000#32 = ⊤ := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- Under the precondition the first two arguments hold real numbers. -/
theorem finite_of_pre (m : (ℓ : Loc Cert.KernelIdeal.nD Cert.KernelIdeal.τ Cert.KernelIdeal.sig) → Buf (Elt Ideal) ℓ)
    (h : Cert.Pre_KernelIdeal (hPre_finite_inputs := Cert.Pre_finite_inputs.Gen.facts) m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal)) := by
  -- the predicate's one result word, with the printed function opened into its five reductions
  have h0 := congrFun (h c) ValueIdx.ix0
  dsimp only [Cert.Pre_finite_inputs.fn, Cert.Pre_finite_inputs.fn_part1] at h0
  -- the conjunction of the five reductions: each one is 1
  dsimp only [andi] at h0
  obtain ⟨⟨⟨⟨e0, e1⟩, _⟩, _⟩, _⟩ :
      (((_ ∧ _) ∧ _) ∧ _) ∧ _ := by
    have a4 := IntOp.andi_eq_one.1 h0
    have a3 := IntOp.andi_eq_one.1 a4.1
    have a2 := IntOp.andi_eq_one.1 a3.1
    have a1 := IntOp.andi_eq_one.1 a2.1
    exact ⟨⟨⟨a1, a2.2⟩, a3.2⟩, a4.2⟩
  -- a reduction by "and" over every axis that is 1 had a 1 at every index; there the comparison says the entry is real
  exact ⟨fun i => real_of_abs_lt_inf _ (Host.reduce_andi_all _ _ _ _ _ e0 i),
    fun i => real_of_abs_lt_inf _ (Host.reduce_andi_all _ _ _ _ _ e1 i)⟩

end Cert.Proof.KV

end
-- ==== Proof.RV.Enc.lean ====
/-
  The reference's soft assignments, read entry by entry on the extended reals, are the softmax of each row's logits:
  for finite inputs the reference's way of writing the logits (the factor 2 taken into the inner product's left factor,
  a division by one, a maximum taken once more against `-∞`) is the same number.
-/
import proofs.«178691_j45775761441268_1_alg».proof.Proof.Spec
import proofs.«178691_j45775761441268_1_alg».proof.Proof.Gen.ReferenceIdeal.Read
import Idealize.ShloMosaic.PureOps.Ideal.Laws
import Idealize.ShloMosaic.Lib.ValueIdx
import Idealize.ShloMosaic.Lib.IdealHost
import Idealize.ShloMosaic.Lib.Pipeline.Value

noncomputable section

namespace Cert.Proof.RV

open Cert.ReferenceIdeal Cert.ReferenceIdeal.Gen Cert.ReferenceIdeal.Read
open Idealize.ShloMosaic Idealize.ShloMosaic.ValueIdx
open Cert.Proof.Spec

variable (x0 : Vec Ideal S65536x256 .f32) (x1 : Vec Ideal S512x256 .f32)
  (h0 : ∀ i, ∃ r : ℝ, x0 i = (r : EReal)) (h1 : ∀ i, ∃ r : ℝ, x1 i = (r : EReal))

namespace EncAux

/-! ## Numbers: the literals 2 and `-∞`, a real sum read on the extended reals, the factor 2, division by one -/

/-- The pattern `0x40000000` is the real 2. -/
theorem lit_two : Ideal.ofBits .f32 0x40000000#32 = ((2 : ℝ) : EReal) := by
  simp [Ideal.ofBits, Ideal.ieee, -EReal.coe_mul]; norm_num

/-- The pattern `0xFF800000` is `-∞`. -/
theorem lit_bot : Ideal.ofBits .f32 0xFF800000#32 = (⊥ : EReal) := by
  simp [Ideal.ofBits, Ideal.ieee]

/-- A sum of reals, read on the extended reals, is the sum of the terms read there. -/
theorem coe_sum_fin {n : Nat} (f : Fin n → ℝ) :
    ((∑ d : Fin n, f d : ℝ) : EReal) = ∑ d : Fin n, (f d : EReal) := by
  classical
  refine Finset.induction_on (Finset.univ : Finset (Fin n)) ?_ ?_
  · simp
  · intro a s ha ih
    rw [Finset.sum_insert ha, Finset.sum_insert ha, EReal.coe_add, ih]

/-- For real entries the factor 2 comes out of the inner product's left factor. -/
theorem two_dot {n : Nat} (u v : Fin n → EReal) (hu : ∀ d, ∃ a : ℝ, u d = (a : EReal))
    (hv : ∀ d, ∃ b : ℝ, v d = (b : EReal)) :
    ∑ d : Fin n, (((2 : ℝ) : EReal) * u d) * v d = 2 * ∑ d : Fin n, u d * v d := by
  choose a ha using hu
  choose b hb using hv
  have e1 : ∀ d, (((2 : ℝ) : EReal) * u d) * v d = ((2 * (a d * b d) : ℝ) : EReal) := fun d => by
    rw [ha d, hb d, ← EReal.coe_mul, ← EReal.coe_mul, mul_assoc]
  have e2 : ∀ d, u d * v d = ((a d * b d : ℝ) : EReal) := fun d => by
    rw [ha d, hb d, ← EReal.coe_mul]
  rw [Finset.sum_congr rfl fun d _ => e1 d, Finset.sum_congr rfl fun d _ => e2 d, ← coe_sum_fin, ← coe_sum_fin,
    ← Finset.mul_sum, EReal.coe_mul]
  norm_cast

/-- Division by one changes nothing. -/
theorem div_one' (y : EReal) : Ideal.div y 1 = y := by
  rw [show (1 : EReal) = ((1 : ℝ) : EReal) by norm_cast, Ideal.div_coe one_ne_zero, one_div, inv_one]
  norm_cast
  exact mul_one y

/-! ## The logits -/

/-- The row's squared norm, broadcast over the codes. -/
theorem v6_eq (r : Fin 65536) (k : Fin 512) :
    val_main_v6 (F := Ideal) x0 (ix2 r k) = dotRow (rowOf x0 r) (rowOf x0 r) := by
  rw [val_main_v6_apply, val_main_v2_apply, val_main_v1_apply, val_main_cst_apply, Ideal.ofBits_def,
    Ideal.ofBits_zero_f32, zero_add]
  refine Finset.sum_congr rfl fun d _ => ?_
  rw [val_main_v0_apply, Ideal.mulf_def]
  have e : idx_main_v1 (idx_main_v2 (idx_main_v6 (ix2 r k))) d = ix2 r d :=
    funext fun a => Fin.ext (by match a with | ⟨0, _⟩ => rfl | ⟨1, _⟩ => rfl)
  rw [e]

/-- The code vector's squared norm, broadcast over the rows. -/
theorem v7_eq (r : Fin 65536) (k : Fin 512) :
    val_main_v7 (F := Ideal) x1 (ix2 r k) = dotRow (bookOf x1 k) (bookOf x1 k) := by
  rw [val_main_v7_apply, val_main_v5_apply, val_main_v4_apply, val_main_cst_0_apply, Ideal.ofBits_def,
    Ideal.ofBits_zero_f32, zero_add]
  refine Finset.sum_congr rfl fun d _ => ?_
  rw [val_main_v3_apply, Ideal.mulf_def]
  have e : idx_main_v4 (idx_main_v5 (idx_main_v7 (ix2 r k))) d = ix2 k d :=
    funext fun a => Fin.ext (by match a with | ⟨0, _⟩ => rfl | ⟨1, _⟩ => rfl)
  rw [e]

include h0 h1 in
/-- The inner product of the doubled row with the code vector is twice the inner product. -/
theorem v12_eq (r : Fin 65536) (k : Fin 512) :
    val_main_v12 (F := Ideal) x0 x1 (ix2 r k) = 2 * dotRow (rowOf x0 r) (bookOf x1 k) := by
  rw [val_main_v12_apply]
  have e : ∀ d : Fin 256, val_main_v10 (F := Ideal) x0 (lidx_main_v12 (ix2 r k) d)
      * val_main_v11 (F := Ideal) x1 (ridx_main_v12 (ix2 r k) d)
      = (((2 : ℝ) : EReal) * rowOf x0 r d) * bookOf x1 k d := fun d => by
    rw [val_main_v10_apply, val_main_v9_apply, val_main_cst_1_apply, val_main_v11_apply, Ideal.ofBits_def, lit_two,
      Ideal.mulf_def]
    have el : lidx_main_v12 (ix2 r k) d = ix2 r d :=
      funext fun a => Fin.ext (by match a with | ⟨0, _⟩ => rfl | ⟨1, _⟩ => rfl)
    have er : idx_main_v11 (ridx_main_v12 (ix2 r k) d) = ix2 k d :=
      funext fun a => Fin.ext (by match a with | ⟨0, _⟩ => rfl | ⟨1, _⟩ => rfl)
    rw [el, er]
  rw [Finset.sum_congr rfl fun d _ => e d]
  exact two_dot (rowOf x0 r) (bookOf x1 k) (fun d => h0 _) (fun d => h1 _)

include h0 h1 in
/-- The reference's logit of row `r` and code `k`. -/
theorem v16_eq (r : Fin 65536) (k : Fin 512) :
    val_main_v16 (F := Ideal) x0 x1 (ix2 r k) = logit (rowOf x0 r) (bookOf x1) k := by
  rw [val_main_v16_apply, val_main_v15_apply, val_main_cst_2_apply, val_main_v14_apply, val_main_v13_apply,
    val_main_v8_apply, v6_eq, v7_eq, v12_eq x0 x1 h0 h1, Ideal.hostDivf_def, Ideal.ofBits_def, Ideal.ofBits_one_f32,
    div_one', Ideal.hostNegf_def, Ideal.negf_def, Ideal.subf_def, Ideal.addf_def]
  rfl

/-! ## The row's maximum -/

/-- The reference's maximum over the codes, taken from `-∞`, at row `r`: the fold of `max` from `⊥` over that row. -/
theorem reduce_max_row (y : Vec Ideal S65536x512 .f32) (r : Fin 65536) :
    Host.reduce (α := Ideal .f32) (FloatOps.maximumf (F := Ideal) (φ := .f32)) y (val_main_cst_3 (F := Ideal))
        reducesTo_S65536x512_S65536_d1 h_S_ (ix1 r)
      = (Finset.univ : Finset (Fin 512)).fold max ⊥ (fun k => y (ix2 r k)) := by
  have hR : S65536x512.Reduces [1] S65536 := by decide
  rw [Host.reduce_eq_fold_single (FloatOps.maximumf (F := Ideal) (φ := .f32)) y _ reducesTo_S65536x512_S65536_d1 hR h_S_,
    val_main_cst_3_apply, Ideal.ofBits_def, lit_bot]
  have hf : (y ∘ hR.lift (ix1 r)) = fun k : Fin 512 => y (ix2 r k) :=
    funext fun k => congrArg y (funext fun c => Fin.ext (by match c with | ⟨0, _⟩ => rfl | ⟨1, _⟩ => rfl))
  exact congrArg (fun f => Finset.fold max (⊥ : EReal) f (Finset.univ : Finset (Fin 512))) hf

include h0 h1 in
/-- The reference's row maximum is the largest logit of the row. -/
theorem v19_eq (r : Fin 65536) :
    val_main_v19 (F := Ideal) x0 x1 (ix1 r) = rowMax (logit (rowOf x0 r) (bookOf x1)) := by
  rw [val_main_v19_apply, val_main_v18_apply, val_main_cst_4_apply, Ideal.ofBits_def, lit_bot, Ideal.maximumf_def,
    max_bot_left]
  unfold val_main_v17
  generalize hy : val_main_v16 (F := Ideal) x0 x1 = y
  refine (reduce_max_row y r).trans ?_
  unfold rowMax
  refine congrArg (fun f => Finset.fold max (⊥ : EReal) f (Finset.univ : Finset (Fin 512))) (funext fun k => ?_)
  rw [← hy]
  exact v16_eq x0 x1 h0 h1 r k

/-! ## The exponentials, their sum, the quotient -/

include h0 h1 in
/-- The exponential of a logit less the row's maximum. -/
theorem v23_eq (r : Fin 65536) (k : Fin 512) :
    val_main_v23 (F := Ideal) x0 x1 (ix2 r k) = expRow (logit (rowOf x0 r) (bookOf x1)) k := by
  have e : idx_main_v20 (idx_main_v21 (ix2 r k)) = ix1 r :=
    funext fun a => Fin.ext (by match a with | ⟨0, _⟩ => rfl)
  rw [val_main_v23_apply, val_main_v22_apply, val_main_v21_apply, val_main_v20_apply, e, v16_eq x0 x1 h0 h1,
    v19_eq x0 x1 h0 h1, Ideal.hostUnary_exp_def, Ideal.subf_def]
  rfl

include h0 h1 in
/-- The sum of a row's exponentials. -/
theorem v24_eq (r : Fin 65536) :
    val_main_v24 (F := Ideal) x0 x1 (ix1 r) = ∑ k' : Fin 512, expRow (logit (rowOf x0 r) (bookOf x1)) k' := by
  rw [val_main_v24_apply, val_main_cst_5_apply, Ideal.ofBits_def, Ideal.ofBits_zero_f32, zero_add]
  refine Finset.sum_congr rfl fun k' _ => ?_
  have e : idx_main_v24 (ix1 r) k' = ix2 r k' :=
    funext fun a => Fin.ext (by match a with | ⟨0, _⟩ => rfl | ⟨1, _⟩ => rfl)
  rw [e, v23_eq x0 x1 h0 h1]

end EncAux

open EncAux

include h0 h1 in
/-- The reference's soft assignment of row `r` to code `k`. -/
theorem enc_ref (r : Fin 65536) (k : Fin 512) :
    val_main_v27 (F := Ideal) x0 x1 (ix2 r k) = enc (rowOf x0 r) (bookOf x1) k := by
  have e : idx_main_v25 (idx_main_v26 (ix2 r k)) = ix1 r :=
    funext fun a => Fin.ext (by match a with | ⟨0, _⟩ => rfl)
  rw [val_main_v27_apply, val_main_v26_apply, val_main_v25_apply, e, v23_eq x0 x1 h0 h1, v24_eq x0 x1 h0 h1,
    Ideal.hostDivf_def]
  rfl

end Cert.Proof.RV

end
-- ==== Proof.RV.Sums.lean ====
/-
  The reference's quantized rows and its three totals over all 65536 rows, read entry by entry on the extended reals.
-/
import proofs.«178691_j45775761441268_1_alg».proof.Proof.RV.Enc
import Mathlib.Data.EReal.Operations

noncomputable section

namespace Cert.Proof.RV

open Cert.ReferenceIdeal Cert.ReferenceIdeal.Gen Cert.ReferenceIdeal.Read
open Idealize.ShloMosaic Idealize.ShloMosaic.ValueIdx
open Cert.Proof.Spec

/-! ### The index maps of the generated stages, at two-coordinate indices -/

/-- The matrix product of the assignments with the codebook reads the assignment of row `r` to code `k`. -/
theorem lidx_v28 (r : Fin 65536) (j : Fin 256) (k : Fin 512) : lidx_main_v28 (ix2 r j) k = ix2 r k :=
  funext fun a => Fin.ext (by match a with | ⟨0, _⟩ => rfl | ⟨1, _⟩ => rfl)

/-- … and entry `j` of code vector `k`. -/
theorem ridx_v28 (r : Fin 65536) (j : Fin 256) (k : Fin 512) : ridx_main_v28 (ix2 r j) k = ix2 k j :=
  funext fun a => Fin.ext (by match a with | ⟨0, _⟩ => rfl | ⟨1, _⟩ => rfl)

/-- The column sum of the assignments at code `k` reads the assignment of row `r` to code `k`. -/
theorem idx_v31 (k : Fin 512) (r : Fin 65536) : idx_main_v31 (ix1 k) r = ix2 r k :=
  funext fun a => Fin.ext (by match a with | ⟨0, _⟩ => rfl | ⟨1, _⟩ => rfl)

/-- The transposed assignments, read inside the product with the rows, are the assignment of row `r` to code `k`. -/
theorem idx_v43 (k : Fin 512) (j : Fin 256) (r : Fin 65536) :
    idx_main_v43 (lidx_main_v44 (ix2 k j) r) = ix2 r k :=
  funext fun a => Fin.ext (by match a with | ⟨0, _⟩ => rfl | ⟨1, _⟩ => rfl)

/-- The product of the transposed assignments with the rows reads entry `j` of row `r`. -/
theorem ridx_v44 (k : Fin 512) (j : Fin 256) (r : Fin 65536) : ridx_main_v44 (ix2 k j) r = ix2 r j :=
  funext fun a => Fin.ext (by match a with | ⟨0, _⟩ => rfl | ⟨1, _⟩ => rfl)

/-- Adding a finite number back after subtracting it changes nothing, also at `±∞`. -/
theorem add_sub_self_real (q : EReal) (b : ℝ) : (b : EReal) + (q - (b : EReal)) = q := by
  rw [add_comm, EReal.sub_add_cancel]

/-- The initial value of the sum over the rows is zero. -/
theorem cst_7_zero (i : S_.Idx) : val_main_cst_7 (F := Ideal) i = 0 := Ideal.ofBits_zero_f32

/-- The initial value of the sum over all entries is zero. -/
theorem cst_17_zero (i : S_.Idx) : val_main_cst_17 (F := Ideal) i = 0 := Ideal.ofBits_zero_f32

variable (x0 : Vec Ideal S65536x256 .f32) (x1 : Vec Ideal S512x256 .f32)
  (h0 : ∀ i, ∃ r : ℝ, x0 i = (r : EReal)) (h1 : ∀ i, ∃ r : ℝ, x1 i = (r : EReal))

include h0 h1 in
/-- The reference's quantized rows. -/
theorem q_ref (r : Fin 65536) (j : Fin 256) :
    val_main_v28 (F := Ideal) x0 x1 (ix2 r j) = quant (rowOf x0 r) (bookOf x1) j := by
  rw [val_main_v28_apply]
  unfold quant
  refine Finset.sum_congr rfl fun k _ => ?_
  rw [lidx_v28, ridx_v28, Cert.Proof.RV.enc_ref x0 x1 h0 h1 r k]

include h0 h1 in
/-- The assignment mass of each code over all rows. -/
theorem es_ref (k : Fin 512) :
    val_main_v31 (F := Ideal) x0 x1 (ix1 k) = ∑ r : Fin 65536, enc (rowOf x0 r) (bookOf x1) k := by
  rw [val_main_v31_apply, cst_7_zero, zero_add]
  refine Finset.sum_congr rfl fun r _ => ?_
  rw [idx_v31, Cert.Proof.RV.enc_ref x0 x1 h0 h1 r k]

include h0 h1 in
/-- The assignment-weighted sum of the rows, for each code. -/
theorem dw_ref (k : Fin 512) (j : Fin 256) :
    val_main_v44 (F := Ideal) x0 x1 (ix2 k j) = ∑ r : Fin 65536, enc (rowOf x0 r) (bookOf x1) k * x0 (ix2 r j) := by
  rw [val_main_v44_apply]
  refine Finset.sum_congr rfl fun r _ => ?_
  rw [val_main_v43_apply, idx_v43, ridx_v44, Cert.Proof.RV.enc_ref x0 x1 h0 h1 r k]

include h0 h1 in
/-- The total squared error. -/
theorem sse_ref :
    val_main_v61 (F := Ideal) x0 x1 ix0 = ∑ r : Fin 65536, sqErr (rowOf x0 r) (bookOf x1) := by
  rw [val_main_v61_apply, cst_17_zero, zero_add,
    sum_idx2 (n0 := 65536) (n1 := 256)]
  refine Finset.sum_congr rfl fun r _ => ?_
  unfold sqErr
  refine Finset.sum_congr rfl fun j _ => ?_
  rw [val_main_v60_apply, val_main_v59_apply, q_ref x0 x1 h0 h1 r j]
  rfl

include h0 h1 in
/-- The straight-through output `x + (q - x)` is the quantized row where `x` is finite. -/
theorem out_ref (r : Fin 65536) (j : Fin 256) :
    val_main_v96 (F := Ideal) x0 x1 (ix2 r j) = quant (rowOf x0 r) (bookOf x1) j := by
  rw [val_main_v96_apply, val_main_v95_apply, q_ref x0 x1 h0 h1 r j]
  obtain ⟨b, hb⟩ := h0 (ix2 r j)
  rw [hb]
  exact add_sub_self_real _ b

end Cert.Proof.RV

end
-- ==== Proof.Algebraic.lean ====
/-
  The two idealized programs end with equal results.

  From memories that agree on the five arguments, the kernel's program leaves: in its first result the quantized rows; as
  its loss and perplexity what the host operations after the region make of the three totals the region accumulated
  block by block. The reference leaves: `x + (q - x)`, which is `q` because `x` is finite; and the loss and the
  perplexity the same host operations make of its own three totals. Row by row the soft assignments agree (for finite
  inputs), so the quantized rows and the three totals agree, and with them the loss and the perplexity.
-/
import proofs.«178691_j45775761441268_1_alg».proof.Defs
import proofs.«178691_j45775761441268_1_alg».proof.Proof.RefFrame
import proofs.«178691_j45775761441268_1_alg».proof.Proof.KI.Body
import proofs.«178691_j45775761441268_1_alg».proof.Proof.KV.Totals
import proofs.«178691_j45775761441268_1_alg».proof.Proof.KV.TailVal
import proofs.«178691_j45775761441268_1_alg».proof.Proof.KV.Finite
import proofs.«178691_j45775761441268_1_alg».proof.Proof.RV.Sums

noncomputable section

namespace Cert.Proof.Alg

open Idealize.ShloMosaic Idealize.ShloMosaic.TcCoe Idealize.ShloMosaic.ValueIdx Idealize.SL.Sem
open Cert.KernelIdeal Cert.KernelIdeal.Gen
open Cert.Proof.KI Cert.Proof.KV Cert.Proof.RV Cert.Proof.Spec

variable (m : (ℓ : Loc nD τ sig) → Buf (Elt Ideal) ℓ) (c : Dev nD)
  (h0 : ∀ i, ∃ r : ℝ, X0 m c i = (r : EReal)) (h1 : ∀ i, ∃ r : ℝ, X1 m c i = (r : EReal))

include h0 h1 in
/-- The reference's straight-through output is the first result's array. -/
theorem out_eq : Cert.ReferenceIdeal.Read.val_main_v96 (F := Ideal) (X0 m c) (X1 m c) = (dats m 0 c).arrAt 2 cfg0.N := by
  funext i
  rw [eq_ix2 i]
  exact (out_ref (X0 m c) (X1 m c) h0 h1 (i 0) (i 1)).trans (total_q m c (i 0) (i 1)).symm

include h0 h1 in
/-- The reference's assignment mass is the second result's array, read as a vector. -/
theorem es_eq : Cert.ReferenceIdeal.Read.val_main_v31 (F := Ideal) (X0 m c) (X1 m c) = esOf ((dats m 0 c).arrAt 3 cfg0.N) := by
  funext i
  rw [eq_ix1 i]
  exact (es_ref (X0 m c) (X1 m c) h0 h1 (i 0)).trans ((esOf_apply _ (i 0)).trans (total_es m c (i 0))).symm

include h0 h1 in
/-- The reference's weighted row sums are the third result's array. -/
theorem dw_eq : Cert.ReferenceIdeal.Read.val_main_v44 (F := Ideal) (X0 m c) (X1 m c) = (dats m 0 c).arrAt 4 cfg0.N := by
  funext i
  rw [eq_ix2 i]
  exact (dw_ref (X0 m c) (X1 m c) h0 h1 (i 0) (i 1)).trans (total_dw m c (i 0) (i 1)).symm

include h0 h1 in
/-- The reference's squared error is the fourth result's array, read as a scalar. -/
theorem sse_eq : Cert.ReferenceIdeal.Read.val_main_v61 (F := Ideal) (X0 m c) (X1 m c) = sseOf ((dats m 0 c).arrAt 5 cfg0.N) := by
  funext i
  obtain rfl : i = ix0 := funext fun a => a.elim0
  exact (sse_ref (X0 m c) (X1 m c) h0 h1).trans ((sseOf_apply _).trans (total_sse m c)).symm

end Cert.Proof.Alg

namespace Cert.Proof

open Idealize.ShloMosaic Idealize.ShloMosaic.TcCoe Idealize.SL.Sem
open Cert.Proof.KI Cert.Proof.KV Cert.Proof.Alg

/-- The two idealized programs, from memories agreeing on the arguments, both run and end with equal results. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => (dats m 0 c).arrAt 2 Cert.KernelIdeal.cfg0.N,
    fun c => Pipeline.afterTail₀ Cert.KernelIdeal.cfgs (dats m) 0 (V0 m) [Cert.KernelIdeal.Gen.hostOps1] c Cert.KernelIdeal.main_v56,
    fun c => Pipeline.afterTail₀ Cert.KernelIdeal.cfgs (dats m) 0 (V0 m) [Cert.KernelIdeal.Gen.hostOps1] c Cert.KernelIdeal.main_v50, ?_, ?_⟩
  · refine (θ_run Cert.KernelIdeal.defs _ _).mono (fun r h c => ?_) (KI.run_main (F := Ideal) m ρ)
    exact ⟨(h c).1 2,
      (h c).2 Cert.KernelIdeal.main_v56 (Pipeline.mem_restRefs_of _ (by decide) (by decide)),
      (h c).2 Cert.KernelIdeal.main_v50 (Pipeline.mem_restRefs_of _ (by decide) (by decide)),
      ((h c).1 0).trans (((dats m 0 c).arrAt_in 0 rfl _).trans (A_eq m c 0)),
      ((h c).1 1).trans (((dats m 0 c).arrAt_in 1 rfl _).trans (A_eq m c 1)),
      ((h c).2 Cert.KernelIdeal.main_arg2 (Pipeline.mem_restRefs_of _ (by decide) (by decide))).trans
        (afterTail_arg m c Cert.KernelIdeal.main_arg2 (by decide) (by decide)),
      ((h c).2 Cert.KernelIdeal.main_arg3 (Pipeline.mem_restRefs_of _ (by decide) (by decide))).trans
        (afterTail_arg m c Cert.KernelIdeal.main_arg3 (by decide) (by decide)),
      ((h c).2 Cert.KernelIdeal.main_arg4 (Pipeline.mem_restRefs_of _ (by decide) (by decide))).trans
        (afterTail_arg m c Cert.KernelIdeal.main_arg4 (by decide) (by decide))⟩
  · refine (θ_run Cert.ReferenceIdeal.defs _ _).mono (fun r h c => ?_) (Cert.ReferenceIdeal.Value.run (F := Ideal) m' ρ')
    obtain ⟨hf0, hf1⟩ := finite_of_pre m hpre c
    obtain ⟨e0, e1, e2, e3, e4⟩ := hagree c
    refine ⟨(h c).1.trans ?_, (h c).2.1.trans ?_, (h c).2.2.1.trans ?_, (h c).2.2.2⟩
    · rw [Cert.ReferenceIdeal.Read.val_main_v96_eq, e0, e1]
      exact out_eq m c hf0 hf1
    · rw [Cert.ReferenceIdeal.Read.val_main_v94_eq, e0, e1, e2, e3, e4]
      refine (ref_loss _ _ _ _ _).trans ?_
      rw [es_eq m c hf0 hf1, dw_eq m c hf0 hf1, sse_eq m c hf0 hf1]
      exact (kernel_loss m c).symm
    · rw [Cert.ReferenceIdeal.Read.val_main_v88_eq, e0, e1]
      refine (ref_perp _ _).trans ?_
      rw [es_eq m c hf0 hf1]
      exact (kernel_perp m c).symm

end Cert.Proof

end
-- ==== Proof.lean ====
/-
  One training step of a vector quantizer: a kernel that walks the 65536 input rows in 64 blocks of 1024 — soft
  assignments by a softmax over minus the squared distances to the 512 code vectors, the quantized rows, and three totals
  accumulated over the blocks — followed by host arithmetic that makes the loss and the perplexity of the totals; against
  a reference that computes all of it over the whole arrays at once.

  The three programs run to their end without a fault and leave their arguments as they found them: the two kernel
  programs by the pipeline's launch theorem over the body's two cases (first point, later point), the reference by its
  run as a sequence of host operations. Nothing was rewritten to idealize the kernel, so the idealization statement is
  empty. On the extended reals the kernel's program and the reference end with equal results: the soft assignments agree
  row by row for finite inputs (the factor 2 of the cross term may stand inside or outside the inner product, and a
  division by one, a maximum against minus infinity and a subtraction from zero change nothing), a sum over blocks of
  sums over a block's rows is the sum over all rows, `x + (q - x)` is `q` for finite `x`, and the host arithmetic after
  the totals is literally the same on both sides.
-/
import proofs.«178691_j45775761441268_1_alg».proof.Defs
import proofs.«178691_j45775761441268_1_alg».proof.Proof.RefFrame
import proofs.«178691_j45775761441268_1_alg».proof.Proof.KI.Body
import proofs.«178691_j45775761441268_1_alg».proof.Proof.KB.Body
import proofs.«178691_j45775761441268_1_alg».proof.Proof.Algebraic

noncomputable section

namespace Cert.Proof

open Idealize.ShloMosaic Idealize.SL.Sem

/-- The word-level kernel program's frame. -/
theorem frame_k : Cert.frame_Kernel (hKernel := Cert.Kernel.Gen.facts) (hPre_finite_inputs := Cert.Pre_finite_inputs.Gen.facts) :=
  fun m ρ _ => Cert.Proof.KB.frame (F := Bits) m ρ

/-- The idealized kernel program's frame. -/
theorem frame_ki : Cert.frame_KernelIdeal (hKernelIdeal := Cert.KernelIdeal.Gen.facts) (hPre_finite_inputs := Cert.Pre_finite_inputs.Gen.facts) :=
  fun m ρ _ => Cert.Proof.KI.frame (F := Ideal) m ρ

theorem claim : Cert.Claim :=
  ⟨Cert.Kernel.Gen.facts, Cert.KernelIdeal.Gen.facts, Cert.ReferenceIdeal.Gen.facts, Cert.Pre_finite_inputs.Gen.facts,
    frame_k, frame_ki, Cert.Proof.RefFrame.frame_ri, trivial, Cert.Proof.algebraic⟩

end Cert.Proof

end
